-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024 : Shape := ⟨2, ![16, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel

variable [Facts]

def fn {F : FTy → Type} [FloatOps F] (main_arg0 : FVec F S16x1024 .f32) (main_arg1 : FVec F S16x1024 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S16x1024 : Shape := ⟨2, ![16, 1024]⟩
abbrev S1024x16 : Shape := ⟨2, ![1024, 16]⟩
abbrev S16x1024x1024 : Shape := ⟨3, ![16, 1024, 1024]⟩
abbrev S32x16 : Shape := ⟨2, ![32, 16]⟩
abbrev S16x32x1024 : Shape := ⟨3, ![16, 32, 1024]⟩
abbrev S16x32 : Shape := ⟨2, ![16, 32]⟩
abbrev S32x1 : Shape := ⟨2, ![32, 1]⟩
abbrev S1x1024 : Shape := ⟨2, ![1, 1024]⟩
abbrev S32x1024 : Shape := ⟨2, ![32, 1024]⟩
abbrev S16x1x1024 : Shape := ⟨3, ![16, 1, 1024]⟩
abbrev S16x32x1 : Shape := ⟨3, ![16, 32, 1]⟩
abbrev S1x32x1024 : Shape := ⟨3, ![1, 32, 1024]⟩

abbrev nBuf : Space → Nat
  | .hbm => 14
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S1024x16, .f32⟩
  | .hbm, ⟨3, _⟩ => ⟨S1024x16, .f32⟩
  | .hbm, ⟨4, _⟩ => ⟨S1024x16, .f32⟩
  | .hbm, ⟨5, _⟩ => ⟨S1024x16, .f32⟩
  | .hbm, ⟨6, _⟩ => ⟨S16x1024x1024, .f32⟩
  | .hbm, ⟨7, _⟩ => ⟨S16x1024x1024, .f32⟩
  | .hbm, ⟨8, _⟩ => ⟨S1024x16, .f32⟩
  | .hbm, ⟨9, _⟩ => ⟨S1024x16, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | .local _ .vmem, ⟨7, _⟩ => ⟨S32x16, .f32⟩
  | .local _ .vmem, ⟨8, _⟩ => ⟨S32x16, .f32⟩
  | .local _ .vmem, ⟨9, _⟩ => ⟨S32x16, .f32⟩
  | .local _ .vmem, ⟨10, _⟩ => ⟨S16x32x1024, .f32⟩
  | .local _ .vmem, ⟨11, _⟩ => ⟨S16x32x1024, .f32⟩
  | .local _ .vmem, ⟨12, _⟩ => ⟨S16x32x1024, .f32⟩
  | .local _ .vmem, ⟨13, _⟩ => ⟨S16x32x1024, .f32⟩
  | .local _ .vmem, ⟨14, _⟩ => ⟨S32x16, .f32⟩
  | .local _ .vmem, ⟨15, _⟩ => ⟨S32x16, .f32⟩
  | .local _ .vmem, ⟨16, _⟩ => ⟨S32x16, .f32⟩
  | .local _ .vmem, ⟨17, _⟩ => ⟨S32x16, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16x1024_S1024x16_1_0 : S16x1024.Transposes [1, 0] S1024x16
  inb_S16x1024_S16x1024_0_0 : ∀ a, (![0, 0] : Fin 2 → Nat) a + S16x1024.size a ≤ S16x1024.size a
  h_S16x1024 : 0 < S16x1024.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  transposes_S32x16_p1_0_S16x32 : S32x16.Transposes [1, 0] S16x32
  iota_S32x1_d0_w32 : S32x1.Iotas .tc 32 [0]
  iota_S1x1024_d1_w32 : S1x1024.Iotas .tc 32 [1]
  broadcasts_S32x1_S32x1024 : S32x1.Broadcasts S32x1024
  broadcasts_S1x1024_S32x1024 : S1x1024.Broadcasts S32x1024
  natLt_1_32 : 1 < 32
  shapeCasts_S16x1024_S16x1x1024 : S16x1024.ShapeCasts S16x1x1024
  shapeCasts_S16x32_S16x32x1 : S16x32.ShapeCasts S16x32x1
  broadcasts_S16x1x1024_S16x32x1024 : S16x1x1024.Broadcasts S16x32x1024
  broadcasts_S16x32x1_S16x32x1024 : S16x32x1.Broadcasts S16x32x1024
  shapeCasts_S32x1024_S1x32x1024 : S32x1024.ShapeCasts S1x32x1024
  broadcasts_S1x32x1024_S16x32x1024 : S1x32x1024.Broadcasts S16x32x1024
  reduces_S16x32x1024_S16x32 : S16x32x1024.Reduces [2] S16x32
  inb_S16x32x1024_S16x32x1024_0_0_0 : ∀ a, (![0, 0, 0] : Fin 3 → Nat) a + S16x32x1024.size a ≤ S16x32x1024.size a
  h_S16x32x1024 : 0 < S16x32x1024.numel
  transposes_S16x32_p1_0_S32x16 : S16x32.Transposes [1, 0] S32x16
  transposes_S1024x16_S16x1024_1_0 : S1024x16.Transposes [1, 0] S16x1024
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S16x1024.size a
  hwx0_0 : ∀ i : grid0.Coords, EltTy.bits .f32 = 32 ∨ (Rect.block (s := S16x1024) S16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S1024x16.size a
  hwx0_2 : ∀ i : grid0.Coords, EltTy.bits .f32 = 32 ∨ (Rect.block (s := S1024x16) S32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S1024x16.size a
  hwx0_3 : ∀ i : grid0.Coords, EltTy.bits .f32 = 32 ∨ (Rect.block (s := S1024x16) S32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S1024x16.size a
  hwx0_4 : ∀ i : grid0.Coords, EltTy.bits .f32 = 32 ∨ (Rect.block (s := S1024x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S1024x16.size a
  hwx0_5 : ∀ i : grid0.Coords, EltTy.bits .f32 = 32 ∨ (Rect.block (s := S1024x16) S32x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x32x1024.size a ≤ S16x1024x1024.size a
  hwx0_6 : ∀ i : grid0.Coords, EltTy.bits .f32 = 32 ∨ (Rect.block (s := S16x1024x1024) S16x32x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x32x1024.size a ≤ S16x1024x1024.size a
  hwx0_7 : ∀ i : grid0.Coords, EltTy.bits .f32 = 32 ∨ (Rect.block (s := S16x1024x1024) S16x32x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x16.size a ≤ S1024x16.size a
  hwx0_8 : ∀ i : grid0.Coords, EltTy.bits .f32 = 32 ∨ (Rect.block (s := S1024x16) S32x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x16.size a ≤ S1024x16.size a
  hwx0_9 : ∀ i : grid0.Coords, EltTy.bits .f32 = 32 ∨ (Rect.block (s := S1024x16) S32x16.size (cc0_transform_9 i) (hinb0_9 i)).WholeWords (EltTy.packing .f32)

variable [Facts₀]

abbrev win0_0 : Pipeline.Window sig grid0 :=
  Pipeline.Window.ofSpec (Memref.whole main_arg0) S16x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S16x32x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S16x32x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_4) S32x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_5) S32x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024 : Shape := ⟨2, ![16, 1024]⟩
abbrev S1024x1024 : Shape := ⟨2, ![1024, 1024]⟩
abbrev S_ : Shape := ⟨0, ![]⟩
abbrev S16x1x1024 : Shape := ⟨3, ![16, 1, 1024]⟩
abbrev S16x1024x1 : Shape := ⟨3, ![16, 1024, 1]⟩
abbrev S16x1024x1024 : Shape := ⟨3, ![16, 1024, 1024]⟩
abbrev S1x1024x1024 : Shape := ⟨3, ![1, 1024, 1024]⟩

abbrev nBuf : Space → Nat
  | .hbm => 165
  | .vmem => 0
  | .smem => 0
  | _ => 0

abbrev hbmTy0_0 (i : Nat) : BufTy := match i % 128 with
  | 0 => ⟨S16x1024, .f32⟩
  | 1 => ⟨S16x1024, .f32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i1⟩
  | 8 => ⟨S1024x1024, .f32⟩
  | 9 => ⟨S_, .f32⟩
  | 10 => ⟨S1024x1024, .f32⟩
  | 11 => ⟨S1024x1024, .f32⟩
  | 12 => ⟨S16x1x1024, .f32⟩
  | 13 => ⟨S16x1024x1, .f32⟩
  | 14 => ⟨S16x1024x1024, .f32⟩
  | 15 => ⟨S16x1024x1024, .f32⟩
  | 16 => ⟨S16x1024x1024, .f32⟩
  | 17 => ⟨S1x1024x1024, .f32⟩
  | 18 => ⟨S16x1024x1024, .f32⟩
  | 19 => ⟨S16x1024x1024, .f32⟩
  | 20 => ⟨S16x1x1024, .f32⟩
  | 21 => ⟨S16x1024x1, .f32⟩
  | 22 => ⟨S16x1024x1024, .f32⟩
  | 23 => ⟨S16x1024x1024, .f32⟩
  | 24 => ⟨S16x1024x1024, .f32⟩
  | 25 => ⟨S1x1024x1024, .f32⟩
  | 26 => ⟨S16x1024x1024, .f32⟩
  | 27 => ⟨S16x1024x1024, .f32⟩
  | 28 => ⟨S16x1024x1024, .f32⟩
  | 29 => ⟨S16x1024x1024, .f32⟩
  | 30 => ⟨S16x1024x1024, .f32⟩
  | 31 => ⟨S16x1024x1024, .f32⟩
  | 32 => ⟨S_, .f32⟩
  | 33 => ⟨S16x1024x1024, .f32⟩
  | 34 => ⟨S16x1024x1024, .f32⟩
  | 35 => ⟨S16x1024x1024, .f32⟩
  | 36 => ⟨S16x1024x1024, .f32⟩
  | 37 => ⟨S_, .f32⟩
  | 38 => ⟨S16x1024x1024, .f32⟩
  | 39 => ⟨S16x1024x1024, .i1⟩
  | 40 => ⟨S16x1024x1024, .f32⟩
  | 41 => ⟨S16x1024x1024, .f32⟩
  | 42 => ⟨S16x1024x1024, .f32⟩
  | 43 => ⟨S16x1024x1024, .f32⟩
  | 44 => ⟨S_, .f32⟩
  | 45 => ⟨S16x1024x1024, .f32⟩
  | 46 => ⟨S16x1024x1024, .f32⟩
  | 47 => ⟨S16x1024x1024, .f32⟩
  | 48 => ⟨S16x1024x1024, .f32⟩
  | 49 => ⟨S16x1024x1024, .f32⟩
  | 50 => ⟨S1x1024x1024, .f32⟩
  | 51 => ⟨S16x1024x1024, .f32⟩
  | 52 => ⟨S16x1024x1024, .f32⟩
  | 53 => ⟨S1x1024x1024, .f32⟩
  | 54 => ⟨S16x1024x1024, .f32⟩
  | 55 => ⟨S16x1024x1024, .f32⟩
  | 56 => ⟨S1x1024x1024, .f32⟩
  | 57 => ⟨S16x1024x1024, .f32⟩
  | 58 => ⟨S16x1024x1024, .f32⟩
  | 59 => ⟨S1x1024x1024, .f32⟩
  | 60 => ⟨S16x1024x1024, .f32⟩
  | 61 => ⟨S16x1024x1024, .f32⟩
  | 62 => ⟨S1x1024x1024, .f32⟩
  | 63 => ⟨S16x1024x1024, .f32⟩
  | 64 => ⟨S16x1024x1024, .f32⟩
  | 65 => ⟨S1x1024x1024, .f32⟩
  | 66 => ⟨S16x1024x1024, .f32⟩
  | 67 => ⟨S16x1024x1024, .f32⟩
  | 68 => ⟨S_, .f32⟩
  | 69 => ⟨S16x1024, .f32⟩
  | 70 => ⟨S_, .f32⟩
  | 71 => ⟨S16x1024, .f32⟩
  | 72 => ⟨S_, .f32⟩
  | 73 => ⟨S16x1024, .f32⟩
  | 74 => ⟨S_, .f32⟩
  | 75 => ⟨S16x1024, .f32⟩
  | 76 => ⟨S1x1024x1024, .f32⟩
  | 77 => ⟨S16x1024x1, .f32⟩
  | 78 => ⟨S16x1024x1024, .f32⟩
  | 79 => ⟨S16x1024x1024, .f32⟩
  | 80 => ⟨S16x1024x1024, .f32⟩
  | 81 => ⟨S16x1024x1024, .f32⟩
  | 82 => ⟨S1x1024x1024, .f32⟩
  | 83 => ⟨S16x1024x1, .f32⟩
  | 84 => ⟨S16x1024x1024, .f32⟩
  | 85 => ⟨S16x1024x1024, .f32⟩
  | 86 => ⟨S16x1024x1024, .f32⟩
  | 87 => ⟨S16x1024x1024, .f32⟩
  | 88 => ⟨S_, .f32⟩
  | 89 => ⟨S16x1024, .f32⟩
  | 90 => ⟨S_, .f32⟩
  | 91 => ⟨S16x1024, .f32⟩
  | 92 => ⟨S_, .f32⟩
  | 93 => ⟨S16x1024, .f32⟩
  | 94 => ⟨S16x1024, .f32⟩
  | 95 => ⟨S_, .f32⟩
  | 96 => ⟨S16x1024, .f32⟩
  | 97 => ⟨S16x1024, .f32⟩
  | 98 => ⟨S_, .f32⟩
  | 99 => ⟨S16x1024, .f32⟩
  | 100 => ⟨S16x1024, .f32⟩
  | 101 => ⟨S_, .f32⟩
  | 102 => ⟨S16x1024, .f32⟩
  | 103 => ⟨S16x1024, .f32⟩
  | 104 => ⟨S16x1024, .f32⟩
  | 105 => ⟨S16x1024, .f32⟩
  | 106 => ⟨S_, .f32⟩
  | 107 => ⟨S16x1024, .f32⟩
  | 108 => ⟨S16x1024, .f32⟩
  | 109 => ⟨S16x1024, .f32⟩
  | 110 => ⟨S16x1024, .f32⟩
  | 111 => ⟨S_, .f32⟩
  | 112 => ⟨S16x1024, .f32⟩
  | 113 => ⟨S16x1024, .i1⟩
  | 114 => ⟨S_, .f32⟩
  | 115 => ⟨S16x1024, .f32⟩
  | 116 => ⟨S16x1024, .f32⟩
  | 117 => ⟨S16x1024, .f32⟩
  | 118 => ⟨S_, .f32⟩
  | 119 => ⟨S16x1024, .f32⟩
  | 120 => ⟨S16x1024, .f32⟩
  | 121 => ⟨S16x1024, .f32⟩
  | 122 => ⟨S16x1024, .f32⟩
  | 123 => ⟨S16x1024, .f32⟩
  | 124 => ⟨S_, .f32⟩
  | 125 => ⟨S16x1024, .f32⟩
  | 126 => ⟨S16x1024, .f32⟩
  | 127 => ⟨S16x1024, .f32⟩
  | _ => ⟨S16x1024, .f32⟩

abbrev hbmTy0_1 (i : Nat) : BufTy := match i % 128 with
  | 0 => ⟨S_, .f32⟩
  | 1 => ⟨S16x1024, .f32⟩
  | 2 => ⟨S16x1024, .f32⟩
  | 3 => ⟨S_, .f32⟩
  | 4 => ⟨S16x1024, .f32⟩
  | 5 => ⟨S16x1024, .f32⟩
  | 6 => ⟨S_, .f32⟩
  | 7 => ⟨S16x1024, .f32⟩
  | 8 => ⟨S16x1024, .f32⟩
  | 9 => ⟨S16x1024, .f32⟩
  | 10 => ⟨S16x1024, .f32⟩
  | 11 => ⟨S16x1024x1, .f32⟩
  | 12 => ⟨S16x1024x1024, .f32⟩
  | 13 => ⟨S16x1024x1024, .f32⟩
  | 14 => ⟨S16x1024x1, .f32⟩
  | 15 => ⟨S16x1024x1024, .f32⟩
  | 16 => ⟨S16x1024x1024, .f32⟩
  | 17 => ⟨S16x1024, .f32⟩
  | 18 => ⟨S16x1024, .f32⟩
  | 19 => ⟨S16x1024, .f32⟩
  | 20 => ⟨S16x1024, .f32⟩
  | 21 => ⟨S_, .f32⟩
  | 22 => ⟨S_, .f32⟩
  | 23 => ⟨S_, .f32⟩
  | 24 => ⟨S16x1024, .f32⟩
  | 25 => ⟨S16x1024, .f32⟩
  | 26 => ⟨S_, .f32⟩
  | 27 => ⟨S16x1024, .f32⟩
  | 28 => ⟨S16x1024, .f32⟩
  | 29 => ⟨S_, .f32⟩
  | 30 => ⟨S_, .f32⟩
  | 31 => ⟨S_, .f32⟩
  | 32 => ⟨S16x1024, .f32⟩
  | 33 => ⟨S16x1024, .f32⟩
  | 34 => ⟨S_, .f32⟩
  | 35 => ⟨S16x1024, .f32⟩
  | 36 => ⟨S16x1024, .f32⟩
  | _ => ⟨S16x1024, .f32⟩

abbrev hbmTy (i : Nat) : BufTy := match i / 128 with
  | 0 => hbmTy0_0 i
  | 1 => hbmTy0_1 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_3 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_7 : Ref sig .tc := ⟨.hbm, 88, rfl⟩
abbrev main_v77 : Ref sig .tc := ⟨.hbm, 89, rfl⟩
abbrev main_cst_8 : Ref sig .tc := ⟨.hbm, 90, rfl⟩
abbrev main_v78 : Ref sig .tc := ⟨.hbm, 91, rfl⟩
abbrev main_cst_9 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_cst_11 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_13 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_14 : Ref sig .tc := ⟨.hbm, 111, rfl⟩
abbrev main_v93 : Ref sig .tc := ⟨.hbm, 112, rfl⟩
abbrev main_v94 : Ref sig .tc := ⟨.hbm, 113, rfl⟩
abbrev main_cst_15 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_16 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_17 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_18 : Ref sig .tc := ⟨.hbm, 128, rfl⟩
abbrev main_v106 : Ref sig .tc := ⟨.hbm, 129, rfl⟩
abbrev main_v107 : Ref sig .tc := ⟨.hbm, 130, rfl⟩
abbrev main_cst_19 : Ref sig .tc := ⟨.hbm, 131, rfl⟩
abbrev main_v108 : Ref sig .tc := ⟨.hbm, 132, rfl⟩
abbrev main_v109 : Ref sig .tc := ⟨.hbm, 133, rfl⟩
abbrev main_cst_20 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_21 : Ref sig .tc := ⟨.hbm, 149, rfl⟩
abbrev main_cst_22 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_v124 : Ref sig .tc := ⟨.hbm, 156, rfl⟩
abbrev main_cst_23 : Ref sig .tc := ⟨.hbm, 157, rfl⟩
abbrev main_cst_24 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v125 : Ref sig .tc := ⟨.hbm, 164, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S16x1024_S16x1x1024_0_2 : S16x1024.BroadcastsInDim S16x1x1024 (![0, 2] : Fin 2 → Fin S16x1x1024.rank)
  bcast_S16x1024_S16x1024x1_0_1 : S16x1024.BroadcastsInDim S16x1024x1 (![0, 1] : Fin 2 → Fin S16x1024x1.rank)
  bcast_S16x1x1024_S16x1024x1024_0_1_2 : S16x1x1024.BroadcastsInDim S16x1024x1024 (![0, 1, 2] : Fin 3 → Fin S16x1024x1024.rank)
  bcast_S16x1024x1_S16x1024x1024_0_1_2 : S16x1024x1.BroadcastsInDim S16x1024x1024 (![0, 1, 2] : Fin 3 → Fin S16x1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)

variable [Facts₀]

class Facts : Prop extends Facts₀ where

variable [Facts]
-- ==== Proof.BoundSpec.lean ====
/-
  Linear bounds on a softmax from interval bounds on its logits, as pure functions on the extended reals.

  The logits of a batch row `b` lie between `l b ·` and `u b ·` (two 16 × 1024 arrays). For an output row `i` and a
  column `j` the difference `x j - x i` lies in `[lo, hi]` with `lo = l b j - u b i` and `hi = u b j - l b i`. On that
  interval `exp` lies below its secant (slope `secSlope`, intercept `secIcpt`; where the interval is shorter than `tiny`
  the slope is `exp hi`) and above its tangent at the midpoint (slope `tanSlope`, intercept `tanIcpt`). The `i = j`
  term is no part of the softmax denominator `1 + ∑_{j ≠ i} exp (x j - x i)`: each of the six quantities of a pair is
  multiplied by the indicator `off i j` of `i ≠ j` before it is summed over `j` (`rowSum`). The row sums of `exp lo` and
  `exp hi` bound the denominator's variable part `S`; `g S = 1 / (1 + S)` is decreasing and convex, bounded above on
  `[Slo, Shi]` by its secant (`secG`) and below by its tangent at `Shi` (`tanG`). Composing the two relaxations gives, for
  each `(b, i)`, a lower and an upper affine bound on the softmax output: coefficient rows over `j` (`lowerCoef`,
  `upperCoef`: the off-diagonal slopes, and on the diagonal minus their row sum) and biases (`lowerBias`, `upperBias`),
  beside the constant bounds `g Shi`, `g Slo` clipped to `[0, 1]` (`softLower`, `softUpper`).

  Every operation is the extended reals' own (`Ideal.exp`, `Ideal.div`, `Ideal.cmp`, `+ - *`, `min`, `max`), and a float
  literal is the value its word denotes. Two laws are all that joins the two programs to these functions:
  a product with `off i j` is `0` on the diagonal and the other factor off it, whatever that factor is (`x * 0 = 0` and
  `x * 1 = x` hold at the infinities too), so masking the pair of bounds first changes nothing (`offd_premask`); and the
  two indicators are each `1` minus the other (`one_sub_off`, `one_sub_dg`).
-/
import Idealize.ShloMosaic.PureOps.Ideal
import Idealize.ShloMosaic.PureOps.Ideal.Laws
import Idealize.ShloMosaic.Lib.ValueIdx

noncomputable section

open scoped BigOperators

namespace Cert.BoundSpec

open Idealize.ShloMosaic Idealize.ShloMosaic.ValueIdx

/-- The shape of the two inputs and of the four per-row results. -/
abbrev SRow : Shape := ⟨2, ![16, 1024]⟩
/-- The shape of the two coefficient results. -/
abbrev SCoef : Shape := ⟨3, ![16, 1024, 1024]⟩

/-! ## The literals -/

/-- `1e-12` as an f32, added to a secant's run. -/
abbrev eps : EReal := Ideal.ofBits .f32 0x2B8CBCCC#32
/-- `1e-9` as an f32, below which an interval counts as a point. -/
abbrev tiny : EReal := Ideal.ofBits .f32 0x3089705F#32
abbrev fone : EReal := Ideal.ofBits .f32 0x3F800000#32
abbrev fhalf : EReal := Ideal.ofBits .f32 0x3F000000#32
abbrev fnegOne : EReal := Ideal.ofBits .f32 0xBF800000#32
abbrev fzero : EReal := Ideal.ofBits .f32 0x00000000#32

/-- The word of `1.0` denotes `1`. -/
theorem fone_eq : fone = 1 := by
  simp [Ideal.ofBits, Ideal.ieee, -EReal.coe_mul]; norm_num

/-! ## The relaxations of `exp` on `[lo, hi]` -/

/-- Slope of the secant of `exp` over `[lo, hi]`; `exp hi` where the interval is shorter than `tiny`. -/
def secSlope (lo hi : EReal) : EReal :=
  Scalar.select (Ideal.cmp .olt (max (hi - lo) (-(hi - lo))) tiny) (Ideal.exp hi)
    (Ideal.div (Ideal.exp hi - Ideal.exp lo) (hi - lo + eps))
/-- Intercept of that secant: it passes through `(lo, exp lo)`. -/
def secIcpt (lo hi : EReal) : EReal := Ideal.exp lo - secSlope lo hi * lo
/-- The midpoint of the interval. -/
def mid (lo hi : EReal) : EReal := fhalf * (lo + hi)
/-- Slope of the tangent of `exp` at the midpoint. -/
def tanSlope (lo hi : EReal) : EReal := Ideal.exp (mid lo hi)
/-- Intercept of that tangent. -/
def tanIcpt (lo hi : EReal) : EReal := tanSlope lo hi - tanSlope lo hi * mid lo hi
def expLo (lo _hi : EReal) : EReal := Ideal.exp lo
def expHi (_lo hi : EReal) : EReal := Ideal.exp hi

/-! ## The two indicators -/

/-- `1` off the diagonal, `0` on it. -/
def off (i j : Fin 1024) : EReal := if i = j then 0 else 1
/-- `1` on the diagonal, `0` off it. -/
def dg (i j : Fin 1024) : EReal := if i = j then 1 else 0

/-- `1 - 1 = 0` on the extended reals (both are real). -/
theorem one_sub_one : (1 : EReal) - 1 = 0 := by
  rw [← EReal.coe_one, ← EReal.coe_sub, sub_self, EReal.coe_zero]

theorem one_sub_off (i j : Fin 1024) : fone - off i j = dg i j := by
  rw [fone_eq]; unfold off dg
  by_cases h : i = j
  · rw [if_pos h, if_pos h, sub_zero]
  · rw [if_neg h, if_neg h, one_sub_one]
theorem one_sub_dg (i j : Fin 1024) : fone - dg i j = off i j := by
  rw [fone_eq]; unfold off dg
  by_cases h : i = j
  · rw [if_pos h, if_pos h, one_sub_one]
  · rw [if_neg h, if_neg h, sub_zero]

/-- Masking the pair of bounds before a quantity of them is taken changes nothing once the quantity itself is masked:
    on the diagonal both sides are a product with `0`, off it every mask is `1`. -/
theorem offd_premask (X : EReal → EReal → EReal) (x y : EReal) (i j : Fin 1024) :
    X (x * off i j) (y * off i j) * off i j = X x y * off i j := by
  unfold off; split_ifs <;> simp

/-! ## Pairs, row sums -/

section
variable (l u : FVec Ideal SRow .f32)

/-- The lower end of `x j - x i`. -/
def lo (b : Fin 16) (i j : Fin 1024) : EReal := l (ix2 b j) - u (ix2 b i)
/-- The upper end of `x j - x i`. -/
def hi (b : Fin 16) (i j : Fin 1024) : EReal := u (ix2 b j) - l (ix2 b i)
/-- A quantity `X` of the pair `(i, j)`'s interval, kept off the diagonal and `0` on it. -/
def offd (X : EReal → EReal → EReal) (b : Fin 16) (i j : Fin 1024) : EReal := X (lo l u b i j) (hi l u b i j) * off i j
/-- Its sum over the columns. -/
def rowSum (X : EReal → EReal → EReal) (b : Fin 16) (i : Fin 1024) : EReal := ∑ j : Fin 1024, offd l u X b i j

/-- The slopes of row `i`'s bound on `S` in the logits: the pair's slope off the diagonal, minus the row's sum of them on it. -/
def coefS (X : EReal → EReal → EReal) (b : Fin 16) (i j : Fin 1024) : EReal := offd l u X b i j - dg i j * rowSum l u X b i

/-! ## The relaxations of `g S = 1 / (1 + S)` -/

/-- `g S`. -/
def recip (S : EReal) : EReal := Ideal.div fone (fone + S)
/-- Slope of the tangent of `g` at `S`: `-1 / (1 + S)²`. -/
def tanG (S : EReal) : EReal := Ideal.div fnegOne ((fone + S) * (fone + S))
/-- Slope of the secant of `g` over `[Slo, Shi]`; the tangent's at `Shi` where the interval is shorter than `tiny`. -/
def secG (Slo Shi : EReal) : EReal :=
  Scalar.select (Ideal.cmp .olt (max (Shi - Slo) (-(Shi - Slo))) tiny) (tanG Shi)
    (Ideal.div (recip Shi - recip Slo) (Shi - Slo + eps))
/-- A value clipped to `[0, 1]`. -/
def clip01 (x : EReal) : EReal := min fone (max fzero x)

/-- The row sums of `exp lo` and of `exp hi`: the ends of `S`. -/
def Slo (b : Fin 16) (i : Fin 1024) : EReal := rowSum l u expLo b i
def Shi (b : Fin 16) (i : Fin 1024) : EReal := rowSum l u expHi b i

/-! ## The six results -/

def softLower : FVec Ideal SRow .f32 := fun y => clip01 (recip (Shi l u (y 0) (y 1)))
def softUpper : FVec Ideal SRow .f32 := fun y => clip01 (recip (Slo l u (y 0) (y 1)))
def lowerCoef : FVec Ideal SCoef .f32 := fun y => tanG (Shi l u (y 0) (y 1)) * coefS l u tanSlope (y 0) (y 1) (y 2)
def upperCoef : FVec Ideal SCoef .f32 := fun y =>
  secG (Slo l u (y 0) (y 1)) (Shi l u (y 0) (y 1)) * coefS l u secSlope (y 0) (y 1) (y 2)
def lowerBias : FVec Ideal SRow .f32 := fun y =>
  tanG (Shi l u (y 0) (y 1)) * rowSum l u tanIcpt (y 0) (y 1)
    + (recip (Shi l u (y 0) (y 1)) - tanG (Shi l u (y 0) (y 1)) * Shi l u (y 0) (y 1))
def upperBias : FVec Ideal SRow .f32 := fun y =>
  secG (Slo l u (y 0) (y 1)) (Shi l u (y 0) (y 1)) * rowSum l u secIcpt (y 0) (y 1)
    + (recip (Slo l u (y 0) (y 1)) - secG (Slo l u (y 0) (y 1)) (Shi l u (y 0) (y 1)) * Slo l u (y 0) (y 1))

theorem softLower_apply (b : Fin 16) (i : Fin 1024) : softLower l u (ix2 b i) = clip01 (recip (Shi l u b i)) := rfl
theorem softUpper_apply (b : Fin 16) (i : Fin 1024) : softUpper l u (ix2 b i) = clip01 (recip (Slo l u b i)) := rfl
theorem lowerCoef_apply (b : Fin 16) (i j : Fin 1024) :
    lowerCoef l u (ix3 b i j) = tanG (Shi l u b i) * coefS l u tanSlope b i j := rfl
theorem upperCoef_apply (b : Fin 16) (i j : Fin 1024) :
    upperCoef l u (ix3 b i j) = secG (Slo l u b i) (Shi l u b i) * coefS l u secSlope b i j := rfl
theorem lowerBias_apply (b : Fin 16) (i : Fin 1024) :
    lowerBias l u (ix2 b i) = tanG (Shi l u b i) * rowSum l u tanIcpt b i + (recip (Shi l u b i) - tanG (Shi l u b i) * Shi l u b i) := rfl
theorem upperBias_apply (b : Fin 16) (i : Fin 1024) :
    upperBias l u (ix2 b i)
      = secG (Slo l u b i) (Shi l u b i) * rowSum l u secIcpt b i + (recip (Slo l u b i) - secG (Slo l u b i) (Shi l u b i) * Slo l u b i) := rfl

end

end Cert.BoundSpec

end
-- ==== Proof.LibCube.lean ====
/-
  Layout operations of a rank-3 array with one axis kept as a unit axis, and a sum along the last axis, read at an
  index written by coordinates. Generic in the extents; only the library is imported.

  * a cast that inserts a unit axis in the middle or at the end: `[a, c] → [a, 1, c]`, `[a, b] → [a, b, 1]`;
  * the three broadcasts of such an array to `[a, b, c]`: from `[a, 1, c]` (constant along the middle axis), from
    `[a, b, 1]` (constant along the last), from `[1, b, c]` (constant along the first);
  * a column `[a, 1]` broadcast to `[a, b]`;
  * at the ideal values, a `multi_reduction <add>` of an `[a, b, c]` array along its last axis at `(p, q)` is the plain
    sum over the last coordinate.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibCube

open Idealize.ShloMosaic Idealize.ShloMosaic.ValueIdx

variable {α : Type}

/-! ## A unit axis inserted by a cast -/

/-- An `[a, c]` array cast to `[a, 1, c]` reads, at `(p, u, q)`, the operand at `(p, q)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, b]` array cast to `[a, b, 1]` reads, at `(p, r, u)`, the operand at `(p, r)`. -/
theorem shapeCast_ab_ab1_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-! ## Broadcasts along one axis -/

/-- An `[a, 1, c]` array broadcast to `[a, b, c]` reads, at `(p, r, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- An `[a, b, 1]` array broadcast to `[a, b, c]` reads, at `(p, r, q)`, the operand at `(p, r, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- A `[1, b, c]` array broadcast to `[a, b, c]` reads, at `(p, r, q)`, the operand at `(0, r, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (r : Fin b) (q : Fin c) :
    broadcastTo ⟨3, ![a, b, c]⟩ v h (ix3 p r q) = v (ix3 (0 : Fin 1) r q) := by
  refine broadcastTo_apply v h (ix3 p r q) (ix3 (0 : Fin 1) r q) fun ax => ?_
  match ax with
  | ⟨0, _⟩ => rfl
  | ⟨1, _⟩ =>
    show r.val = if b = 1 then 0 else r.val
    split
    · have := r.isLt; omega
    · rfl
  | ⟨2, _⟩ =>
    show q.val = if c = 1 then 0 else q.val
    split
    · have := q.isLt; omega
    · rfl

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## A sum along the last axis -/

/-- The index a reduction along the last axis of `[a, b, c]` reads at `(p, r)` and coordinate `q` is `(p, r, q)`. -/
theorem lift_last {a b c : ℕ} (h : (⟨3, ![a, b, c]⟩ : Shape).Reduces [2] (⟨2, ![a, b]⟩ : Shape)) (p : Fin a) (r : Fin b)
    (q : Fin c) : h.lift (ix2 p r) q = ix3 p r q := by
  funext ax
  match ax with
  | ⟨0, _⟩ => exact Fin.ext rfl
  | ⟨1, _⟩ => exact Fin.ext rfl
  | ⟨2, _⟩ => exact Fin.ext rfl

/-- At the ideal values a `multi_reduction <add>` of an `[a, b, c]` array along its last axis, at `(p, r)`, is the sum of
    the array over the last coordinate. -/
theorem multiReduction_add_last {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (p : Fin a) (r : Fin b) :
    multiReduction .add [2] ⟨2, ![a, b]⟩ src acc h hφ hacc (ix2 p r) = ∑ q : Fin c, src (ix3 p r q) := by
  rw [Ideal.multiReduction_add_single]
  show ∑ q : Fin c, src (h.lift (ix2 p r) q) = ∑ q : Fin c, src (ix3 p r q)
  exact Finset.sum_congr rfl fun q _ => congrArg src (lift_last h p r q)

end Cert.LibCube

end
-- ==== Proof.KernelBlock.lean ====
/-
  What the kernel body leaves in each output block at one grid point, read at an index.

  At grid point `ti` the body sees the two whole input arrays `l`, `u` (16 × 1024) and the 32 rows `32·ti … 32·ti+31` of
  their transposes (`lT`, `uT`: 32 × 16). Row `r` of the tile is row `tileRow ti r` of the results. Each of the six
  output blocks, at an index, is the corresponding function of Proof/BoundSpec.lean at that row.

  The road: the off-diagonal indicator the body builds from the grid position is `off (tileRow ti r) j` (the words of the
  row `32·ti + r` and of the column `j` are below `1024`, so they differ exactly when the naturals do); the two ends of a
  pair are `lo` and `hi` at that row (the transposed blocks hold the rows of `l`, `u`); every quantity of a pair is the
  specification's function of the two ends, elementwise; a sum along the last axis is the sum over the columns; the
  per-row stage is elementwise again; and the four per-row results are stored transposed.
-/
import proofs.«157890_j59949153518086_1_alg».proof.Proof.KernelIdealFrame
import proofs.«157890_j59949153518086_1_alg».proof.Proof.BoundSpec
import proofs.«157890_j59949153518086_1_alg».proof.Proof.LibCube
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockValue

open Idealize.ShloMosaic Idealize.ShloMosaic.ValueIdx
open Cert.KernelIdeal Cert.KernelIdeal.Gen Cert.KernelIdeal.GenP Cert.BoundSpec

/-- Row `r` of the tile at grid point `ti`, as a row of the whole results. -/
def tileRow (ti r : Fin 32) : Fin 1024 := ⟨32 * ti.val + r.val, by omega⟩

/-! ## The two indicators the body builds from the grid position -/

/-- The comparison word of the mask: the row word `32·t + r` and the column word `j` differ exactly when the naturals do
    (all three are below `1024`, so no product or sum wraps). -/
theorem ne_word (t r : Fin 32) (j : Fin 1024) :
    IntOp.cmpi .ne (IntOp.addi (Scalar.muli (BitVec.ofNat 32 t.val) 32#32) (BitVec.ofNat 32 r.val)) (BitVec.ofNat 32 j.val)
      = if 32 * t.val + r.val = j.val then 0#1 else 1#1 := by
  have ht := t.isLt; have hr := r.isLt; have hj := j.isLt
  unfold IntOp.cmpi IntOp.addi Scalar.muli IntOp.muli
  by_cases h : 32 * t.val + r.val = j.val
  · rw [if_pos h]
    have : (BitVec.ofNat 32 t.val * 32#32 + BitVec.ofNat 32 r.val) = BitVec.ofNat 32 j.val := by
      bv_omega
    simp [this]
  · rw [if_neg h]
    have : (BitVec.ofNat 32 t.val * 32#32 + BitVec.ofNat 32 r.val) ≠ BitVec.ofNat 32 j.val := by
      bv_omega
    rw [bne_iff_ne.mpr this]; rfl

/-- The bit `0`, widened to a word and read as a signed integer, is the real `0`. -/
theorem bit_zero_val : (FloatOps.sitofp (F := Ideal) .f32 ((0#1).setWidth 32) : EReal) = 0 := by
  show (((((0#1).setWidth 32).toInt : ℤ) : ℝ) : EReal) = 0
  have : ((0#1).setWidth 32).toInt = 0 := by decide
  rw [this]; simp
/-- The bit `1`, widened to a word and read as a signed integer, is the real `1`. -/
theorem bit_one_val : (FloatOps.sitofp (F := Ideal) .f32 ((1#1).setWidth 32) : EReal) = 1 := by
  show (((((1#1).setWidth 32).toInt : ℤ) : ℝ) : EReal) = 1
  have : ((1#1).setWidth 32).toInt = 1 := by decide
  rw [this]; simp

/-- The off-diagonal indicator of the tile at `(r, j)` is `off` at the tile's row `r` and column `j`. -/
theorem pay4_apply (i : grid0.Coords) (ti : Fin 32) (hti : (i 0).val = ti.val) (r : Fin 32) (j : Fin 1024) :
    k0_pay4 (F := Ideal) i (ix2 r j) = off (tileRow ti r) j := by
  unfold k0_pay4
  show FloatOps.sitofp (F := Ideal) .f32 ((IntOp.cmpi .ne
      (broadcastTo S32x1024 (addi (broadcast S32x1 (Scalar.muli (BitVec.ofNat 32 (i 0).val) 32#32)) (iota .tc S32x1 32 [0] iota_S32x1_d0_w32)) broadcasts_S32x1_S32x1024 (ix2 r j))
      (broadcastTo S32x1024 (iota .tc S1x1024 32 [1] iota_S1x1024_d1_w32) broadcasts_S1x1024_S32x1024 (ix2 r j))).setWidth 32) = _
  rw [LibCube.broadcastTo_a1_ab_apply _ broadcasts_S32x1_S32x1024 r j, broadcastTo_1b_ab_apply _ broadcasts_S1x1024_S32x1024 r j]
  show FloatOps.sitofp (F := Ideal) .f32 ((IntOp.cmpi .ne
      (IntOp.addi (Scalar.muli (BitVec.ofNat 32 (i 0).val) 32#32) (iota .tc S32x1 32 [0] iota_S32x1_d0_w32 (ix2 r (0 : Fin 1))))
      (iota .tc S1x1024 32 [1] iota_S1x1024_d1_w32 (ix2 (0 : Fin 1) j))).setWidth 32) = _
  rw [iota_single_apply, iota_single_apply, hti]
  show FloatOps.sitofp (F := Ideal) .f32 ((IntOp.cmpi .ne
      (IntOp.addi (Scalar.muli (BitVec.ofNat 32 ti.val) 32#32) (BitVec.ofNat 32 r.val))
      (BitVec.ofNat 32 j.val)).setWidth 32) = _
  rw [ne_word ti r j]
  unfold off
  by_cases h : 32 * ti.val + r.val = j.val
  · rw [if_pos h, if_pos (Fin.ext h : tileRow ti r = j)]; exact bit_zero_val
  · rw [if_neg h, if_neg (fun e : tileRow ti r = j => h (congrArg Fin.val e))]; exact bit_one_val

/-- The diagonal indicator of the tile, `1` minus the other, is `dg` there. -/
theorem pay5_apply (i : grid0.Coords) (ti : Fin 32) (hti : (i 0).val = ti.val) (r : Fin 32) (j : Fin 1024) :
    k0_pay5 (F := Ideal) i (ix2 r j) = dg (tileRow ti r) j := by
  unfold k0_pay5
  show fone - k0_pay4 (F := Ideal) i (ix2 r j) = _
  rw [pay4_apply i ti hti r j, one_sub_off]

/-! ## The two ends of a pair -/

/-- A whole array minus a transposed block, both spread over the cube: at `(b, r, j)` the array at `(b, j)` minus the block at
    `(r, b)`. -/
theorem pay6_apply (x : Vec Ideal S16x1024 .f32) (yT : Vec Ideal S32x16 .f32) (b : Fin 16) (r : Fin 32) (j : Fin 1024) :
    k0_pay6 (F := Ideal) x yT (ix3 b r j) = x (ix2 b j) - yT (ix2 r b) := by
  unfold k0_pay6
  show broadcastTo S16x32x1024 (shapeCast S16x1x1024 x shapeCasts_S16x1024_S16x1x1024) broadcasts_S16x1x1024_S16x32x1024 (ix3 b r j)
      - broadcastTo S16x32x1024 (shapeCast S16x32x1 (transpose S16x32 [1, 0] (shapeCast S32x16 yT shapeCasts_S32x16_S32x16)
          transposes_S32x16_p1_0_S16x32) shapeCasts_S16x32_S16x32x1) broadcasts_S16x32x1_S16x32x1024 (ix3 b r j) = _
  rw [LibCube.broadcastTo_a1c_abc_apply _ broadcasts_S16x1x1024_S16x32x1024 b r j,
    LibCube.shapeCast_ac_a1c_apply x shapeCasts_S16x1024_S16x1x1024 b 0 j,
    LibCube.broadcastTo_ab1_abc_apply _ broadcasts_S16x32x1_S16x32x1024 b r j,
    LibCube.shapeCast_ab_ab1_apply _ shapeCasts_S16x32_S16x32x1 b r 0,
    transpose_ix2_apply _ transposes_S32x16_p1_0_S16x32 b r, shapeCast_self]

/-- The same for the other end (the body's text is the same operations on the other two operands). -/
theorem pay7_apply (x : Vec Ideal S16x1024 .f32) (yT : Vec Ideal S32x16 .f32) (b : Fin 16) (r : Fin 32) (j : Fin 1024) :
    k0_pay7 (F := Ideal) x yT (ix3 b r j) = x (ix2 b j) - yT (ix2 r b) := by
  unfold k0_pay7
  show broadcastTo S16x32x1024 (shapeCast S16x1x1024 x shapeCasts_S16x1024_S16x1x1024) broadcasts_S16x1x1024_S16x32x1024 (ix3 b r j)
      - broadcastTo S16x32x1024 (shapeCast S16x32x1 (transpose S16x32 [1, 0] (shapeCast S32x16 yT shapeCasts_S32x16_S32x16)
          transposes_S32x16_p1_0_S16x32) shapeCasts_S16x32_S16x32x1) broadcasts_S16x32x1_S16x32x1024 (ix3 b r j) = _
  rw [LibCube.broadcastTo_a1c_abc_apply _ broadcasts_S16x1x1024_S16x32x1024 b r j,
    LibCube.shapeCast_ac_a1c_apply x shapeCasts_S16x1024_S16x1x1024 b 0 j,
    LibCube.broadcastTo_ab1_abc_apply _ broadcasts_S16x32x1_S16x32x1024 b r j,
    LibCube.shapeCast_ab_ab1_apply _ shapeCasts_S16x32_S16x32x1 b r 0,
    transpose_ix2_apply _ transposes_S32x16_p1_0_S16x32 b r, shapeCast_self]

/-! ## The quantities of a pair, elementwise in its two ends -/

section Pointwise
variable (v1 v2 : Vec Ideal S16x1024 .f32) (v3 v6 : Vec Ideal S32x16 .f32) (y : S16x32x1024.Idx)

theorem pay8_eq : k0_pay8 (F := Ideal) v1 v6 y = expLo (k0_pay6 (F := Ideal) v1 v6 y) (k0_pay7 (F := Ideal) v2 v3 y) := rfl
theorem pay9_eq : k0_pay9 (F := Ideal) v2 v3 y = expHi (k0_pay6 (F := Ideal) v1 v6 y) (k0_pay7 (F := Ideal) v2 v3 y) := rfl
theorem pay10_eq :
    k0_pay10 (F := Ideal) v1 v2 v3 v6 y = secSlope (k0_pay6 (F := Ideal) v1 v6 y) (k0_pay7 (F := Ideal) v2 v3 y) := rfl
theorem pay11_eq :
    k0_pay11 (F := Ideal) v1 v2 v3 v6 y = secIcpt (k0_pay6 (F := Ideal) v1 v6 y) (k0_pay7 (F := Ideal) v2 v3 y) := rfl
theorem pay12_eq :
    k0_pay12 (F := Ideal) v1 v2 v3 v6 y = mid (k0_pay6 (F := Ideal) v1 v6 y) (k0_pay7 (F := Ideal) v2 v3 y) := rfl
/-- The tangent's slope is the exponential of the midpoint … -/
theorem pay13_eq :
    k0_pay13 (F := Ideal) (k0_pay12 (F := Ideal) v1 v2 v3 v6) y
      = tanSlope (k0_pay6 (F := Ideal) v1 v6 y) (k0_pay7 (F := Ideal) v2 v3 y) := rfl
/-- … and its intercept the slope minus the slope times the midpoint. -/
theorem tanIcpt_eq :
    subf (k0_pay13 (F := Ideal) (k0_pay12 (F := Ideal) v1 v2 v3 v6))
        (mulf (k0_pay13 (F := Ideal) (k0_pay12 (F := Ideal) v1 v2 v3 v6)) (k0_pay12 (F := Ideal) v1 v2 v3 v6)) y
      = tanIcpt (k0_pay6 (F := Ideal) v1 v6 y) (k0_pay7 (F := Ideal) v2 v3 y) := rfl

end Pointwise

/-! ## A masked sum along the last axis -/

/-- A cube times a mask spread over its first axis, summed along the last axis: at `(b, r)` the sum over the columns `q` of
    the cube at `(b, r, q)` times the mask at `(r, q)`. -/
theorem pay14_apply (m : FVec Ideal S32x1024 .f32) (X : FVec Ideal S16x32x1024 .f32) (b : Fin 16) (r : Fin 32) :
    k0_pay14 (F := Ideal) m X (ix2 b r) = ∑ q : Fin 1024, X (ix3 b r q) * m (ix2 r q) := by
  unfold k0_pay14
  refine (LibCube.multiReduction_add_last _ _ reduces_S16x32x1024_S16x32 (.inl rfl) rfl b r).trans ?_
  refine Finset.sum_congr rfl fun q _ => ?_
  show X (ix3 b r q) * broadcastTo S16x32x1024 (shapeCast S1x32x1024 m shapeCasts_S32x1024_S1x32x1024)
      broadcasts_S1x32x1024_S16x32x1024 (ix3 b r q) = _
  rw [LibCube.broadcastTo_1bc_abc_apply _ broadcasts_S1x32x1024_S16x32x1024 b r q,
    shapeCast_ab_1ab_apply m shapeCasts_S32x1024_S1x32x1024 0 r q]

/-- The body's four other masked sums are the same operations on other operands. -/
theorem pay15_eq (m : FVec Ideal S32x1024 .f32) (X : FVec Ideal S16x32x1024 .f32) :
    k0_pay15 (F := Ideal) m X = k0_pay14 (F := Ideal) m X := rfl
theorem pay16_eq (m : FVec Ideal S32x1024 .f32) (X : FVec Ideal S16x32x1024 .f32) :
    k0_pay16 (F := Ideal) m X = k0_pay14 (F := Ideal) m X := rfl
theorem pay17_eq (m : FVec Ideal S32x1024 .f32) (v45 : FVec Ideal S16x32x1024 .f32) :
    k0_pay17 (F := Ideal) m v45
      = k0_pay14 (F := Ideal) m (subf (k0_pay13 (F := Ideal) v45) (mulf (k0_pay13 (F := Ideal) v45) v45)) := rfl

/-! ## The slopes of a row's bound: the masked cube minus the diagonal times its row sum -/

theorem pay18_apply (m d : FVec Ideal S32x1024 .f32) (X : FVec Ideal S16x32x1024 .f32) (b : Fin 16) (r : Fin 32) (j : Fin 1024) :
    k0_pay18 (F := Ideal) m d X (ix3 b r j)
      = X (ix3 b r j) * m (ix2 r j) - d (ix2 r j) * k0_pay14 (F := Ideal) m X (ix2 b r) := by
  unfold k0_pay18
  show X (ix3 b r j) * broadcastTo S16x32x1024 (shapeCast S1x32x1024 m shapeCasts_S32x1024_S1x32x1024)
        broadcasts_S1x32x1024_S16x32x1024 (ix3 b r j)
      - broadcastTo S16x32x1024 (shapeCast S1x32x1024 d shapeCasts_S32x1024_S1x32x1024) broadcasts_S1x32x1024_S16x32x1024 (ix3 b r j)
        * broadcastTo S16x32x1024 (shapeCast S16x32x1 (k0_pay14 (F := Ideal) m X) shapeCasts_S16x32_S16x32x1)
            broadcasts_S16x32x1_S16x32x1024 (ix3 b r j) = _
  rw [LibCube.broadcastTo_1bc_abc_apply _ broadcasts_S1x32x1024_S16x32x1024 b r j,
    shapeCast_ab_1ab_apply m shapeCasts_S32x1024_S1x32x1024 0 r j,
    LibCube.broadcastTo_1bc_abc_apply _ broadcasts_S1x32x1024_S16x32x1024 b r j,
    shapeCast_ab_1ab_apply d shapeCasts_S32x1024_S1x32x1024 0 r j,
    LibCube.broadcastTo_ab1_abc_apply _ broadcasts_S16x32x1_S16x32x1024 b r j,
    LibCube.shapeCast_ab_ab1_apply _ shapeCasts_S16x32_S16x32x1 b r 0]

theorem pay19_apply (m d : FVec Ideal S32x1024 .f32) (v45 : FVec Ideal S16x32x1024 .f32) (b : Fin 16) (r : Fin 32) (j : Fin 1024) :
    k0_pay19 (F := Ideal) m d v45 (ix3 b r j)
      = k0_pay13 (F := Ideal) v45 (ix3 b r j) * m (ix2 r j)
        - d (ix2 r j) * k0_pay14 (F := Ideal) m (k0_pay13 (F := Ideal) v45) (ix2 b r) := by
  unfold k0_pay19
  show k0_pay13 (F := Ideal) v45 (ix3 b r j) * broadcastTo S16x32x1024 (shapeCast S1x32x1024 m shapeCasts_S32x1024_S1x32x1024)
        broadcasts_S1x32x1024_S16x32x1024 (ix3 b r j)
      - broadcastTo S16x32x1024 (shapeCast S1x32x1024 d shapeCasts_S32x1024_S1x32x1024) broadcasts_S1x32x1024_S16x32x1024 (ix3 b r j)
        * broadcastTo S16x32x1024 (shapeCast S16x32x1 (k0_pay14 (F := Ideal) m (k0_pay13 (F := Ideal) v45)) shapeCasts_S16x32_S16x32x1)
            broadcasts_S16x32x1_S16x32x1024 (ix3 b r j) = _
  rw [LibCube.broadcastTo_1bc_abc_apply _ broadcasts_S1x32x1024_S16x32x1024 b r j,
    shapeCast_ab_1ab_apply m shapeCasts_S32x1024_S1x32x1024 0 r j,
    LibCube.broadcastTo_1bc_abc_apply _ broadcasts_S1x32x1024_S16x32x1024 b r j,
    shapeCast_ab_1ab_apply d shapeCasts_S32x1024_S1x32x1024 0 r j,
    LibCube.broadcastTo_ab1_abc_apply _ broadcasts_S16x32x1_S16x32x1024 b r j,
    LibCube.shapeCast_ab_ab1_apply _ shapeCasts_S16x32_S16x32x1 b r 0]

/-! ## The per-row stage, elementwise in the row sums -/

section PerRow
variable (m : FVec Ideal S32x1024 .f32) (X30 X31 : FVec Ideal S16x32x1024 .f32)
  (v67 v68 v71 v72 v88 v92 v93 v94 : FVec Ideal S16x32 .f32) (c : Ideal .f32) (y : S16x32.Idx)

theorem pay20_eq : k0_pay20 (F := Ideal) m X30 y = recip (k0_pay14 (F := Ideal) m X30 y) := rfl
theorem pay21_eq : k0_pay21 (F := Ideal) m X31 y = recip (k0_pay15 (F := Ideal) m X31 y) := rfl
theorem pay22_eq : k0_pay22 (F := Ideal) m X30 X31 y = k0_pay15 (F := Ideal) m X31 y - k0_pay14 (F := Ideal) m X30 y := rfl
theorem pay23_eq : k0_pay23 (F := Ideal) m X30 X31 y = k0_pay21 (F := Ideal) m X31 y - k0_pay20 (F := Ideal) m X30 y := rfl
/-- The secant's slope of `g`, in the three row values it is computed from and the literal added to its run. -/
theorem pay24_eq :
    k0_pay24 (F := Ideal) v68 v93 v94 c y
      = Scalar.select (Ideal.cmp .olt (max (v93 y) (-(v93 y))) tiny) (tanG (v68 y)) (Ideal.div (v94 y) (v93 y + c)) := rfl
theorem pay25_eq : k0_pay25 (F := Ideal) v68 y = tanG (v68 y) := rfl
theorem pay28_eq :
    k0_pay28 (F := Ideal) v67 v68 v71 v88 v93 v94 c y
      = k0_pay24 (F := Ideal) v68 v93 v94 c y * v71 y + (v88 y - k0_pay24 (F := Ideal) v68 v93 v94 c y * v67 y) := rfl
theorem pay29_eq :
    k0_pay29 (F := Ideal) v68 v72 v92 y
      = k0_pay25 (F := Ideal) v68 y * v72 y + (v92 y - k0_pay25 (F := Ideal) v68 y * v68 y) := rfl
theorem pay30_eq : k0_pay30 (F := Ideal) v88 y = clip01 (v88 y) := rfl

end PerRow

/-- A per-row slope spread along the last axis, times a cube. -/
theorem pay26_apply (v68 v93 v94 : FVec Ideal S16x32 .f32) (v78 : FVec Ideal S16x32x1024 .f32) (c : Ideal .f32)
    (b : Fin 16) (r : Fin 32) (j : Fin 1024) :
    k0_pay26 (F := Ideal) v68 v78 v93 v94 c (ix3 b r j) = k0_pay24 (F := Ideal) v68 v93 v94 c (ix2 b r) * v78 (ix3 b r j) := by
  unfold k0_pay26
  show broadcastTo S16x32x1024 (shapeCast S16x32x1 (k0_pay24 (F := Ideal) v68 v93 v94 c) shapeCasts_S16x32_S16x32x1)
      broadcasts_S16x32x1_S16x32x1024 (ix3 b r j) * v78 (ix3 b r j) = _
  rw [LibCube.broadcastTo_ab1_abc_apply _ broadcasts_S16x32x1_S16x32x1024 b r j,
    LibCube.shapeCast_ab_ab1_apply _ shapeCasts_S16x32_S16x32x1 b r 0]

theorem pay27_apply (v68 : FVec Ideal S16x32 .f32) (v84 : FVec Ideal S16x32x1024 .f32) (b : Fin 16) (r : Fin 32) (j : Fin 1024) :
    k0_pay27 (F := Ideal) v68 v84 (ix3 b r j) = k0_pay25 (F := Ideal) v68 (ix2 b r) * v84 (ix3 b r j) := by
  unfold k0_pay27
  show broadcastTo S16x32x1024 (shapeCast S16x32x1 (k0_pay25 (F := Ideal) v68) shapeCasts_S16x32_S16x32x1)
      broadcasts_S16x32x1_S16x32x1024 (ix3 b r j) * v84 (ix3 b r j) = _
  rw [LibCube.broadcastTo_ab1_abc_apply _ broadcasts_S16x32x1_S16x32x1024 b r j,
    LibCube.shapeCast_ab_ab1_apply _ shapeCasts_S16x32_S16x32x1 b r 0]

/-! ## The transposes the per-row results are stored through -/

theorem pay1_apply (v : FVec Ideal S16x32 .f32) (r : Fin 32) (b : Fin 16) : k0_pay1 (F := Ideal) v (ix2 r b) = v (ix2 b r) :=
  transpose_ix2_apply v transposes_S16x32_p1_0_S32x16 r b
theorem pay2_apply (v : FVec Ideal S16x32 .f32) (r : Fin 32) (b : Fin 16) : k0_pay2 (F := Ideal) v (ix2 r b) = v (ix2 b r) :=
  transpose_ix2_apply v transposes_S16x32_p1_0_S32x16 r b
theorem pay3_apply (v : FVec Ideal S16x32 .f32) (r : Fin 32) (b : Fin 16) : k0_pay3 (F := Ideal) v (ix2 r b) = v (ix2 b r) :=
  transpose_ix2_apply v transposes_S16x32_p1_0_S32x16 r b
/-- The clipped value, transposed. -/
theorem pay31_apply (v92 : FVec Ideal S16x32 .f32) (r : Fin 32) (b : Fin 16) :
    k0_pay31 (F := Ideal) v92 (ix2 r b) = clip01 (v92 (ix2 b r)) := by
  unfold k0_pay31
  show transpose S32x16 [1, 0] (k0_pay30 (F := Ideal) v92) transposes_S16x32_p1_0_S32x16 (ix2 r b) = _
  rw [transpose_ix2_apply _ transposes_S16x32_p1_0_S32x16 r b]
  rfl

/-! ## Each block is its one store's payload of the four inputs -/

theorem hz2 : (![0, 0] : Fin 2 → Nat) = fun _ => 0 := funext fun a => by fin_cases a <;> rfl
theorem hz3 : (![0, 0, 0] : Fin 3 → Nat) = fun _ => 0 := funext fun a => by fin_cases a <;> rfl

section Payloads
variable (i : grid0.Coords) (x0 x1 : Vec Ideal S16x1024 .f32) (x2 x3 : Vec Ideal S32x16 .f32)

theorem out4_eq : out0_4 (F := Ideal) i x0 x1 x2 x3
    = k0_pay31 (F := Ideal) (k0_pay21 (F := Ideal) (k0_pay4 (F := Ideal) i) (k0_pay9 (F := Ideal) x1 x2)) := by
  unfold out0_4
  rw [View.canon_unit_zero hz2]
  simp only [View.ld_unit_zero (S := S16x1024) hz2, View.ld_unit_zero (S := S32x16) hz2]

theorem out5_eq : out0_5 (F := Ideal) i x0 x1 x2 x3
    = k0_pay1 (F := Ideal) (k0_pay30 (F := Ideal) (k0_pay20 (F := Ideal) (k0_pay4 (F := Ideal) i) (k0_pay8 (F := Ideal) x0 x3))) := by
  unfold out0_5
  rw [View.canon_unit_zero hz2]
  simp only [View.ld_unit_zero (S := S16x1024) hz2, View.ld_unit_zero (S := S32x16) hz2]

theorem out6_eq : out0_6 (F := Ideal) i x0 x1 x2 x3
    = k0_pay27 (F := Ideal) (k0_pay15 (F := Ideal) (k0_pay4 (F := Ideal) i) (k0_pay9 (F := Ideal) x1 x2))
        (k0_pay19 (F := Ideal) (k0_pay4 (F := Ideal) i) (k0_pay5 (F := Ideal) i) (k0_pay12 (F := Ideal) x0 x1 x2 x3)) := by
  unfold out0_6
  rw [View.canon_unit_zero hz3]
  simp only [View.ld_unit_zero (S := S16x1024) hz2, View.ld_unit_zero (S := S32x16) hz2]

theorem out7_eq : out0_7 (F := Ideal) i x0 x1 x2 x3
    = k0_pay26 (F := Ideal) (k0_pay15 (F := Ideal) (k0_pay4 (F := Ideal) i) (k0_pay9 (F := Ideal) x1 x2))
        (k0_pay18 (F := Ideal) (k0_pay4 (F := Ideal) i) (k0_pay5 (F := Ideal) i) (k0_pay10 (F := Ideal) x0 x1 x2 x3))
        (k0_pay22 (F := Ideal) (k0_pay4 (F := Ideal) i) (k0_pay8 (F := Ideal) x0 x3) (k0_pay9 (F := Ideal) x1 x2))
        (k0_pay23 (F := Ideal) (k0_pay4 (F := Ideal) i) (k0_pay8 (F := Ideal) x0 x3) (k0_pay9 (F := Ideal) x1 x2))
        (Scalar.ofBits .f32 0x2B8CBCCC#32) := by
  unfold out0_7
  rw [View.canon_unit_zero hz3]
  simp only [View.ld_unit_zero (S := S16x1024) hz2, View.ld_unit_zero (S := S32x16) hz2]

theorem out8_eq : out0_8 (F := Ideal) i x0 x1 x2 x3
    = k0_pay2 (F := Ideal) (k0_pay29 (F := Ideal) (k0_pay15 (F := Ideal) (k0_pay4 (F := Ideal) i) (k0_pay9 (F := Ideal) x1 x2))
        (k0_pay17 (F := Ideal) (k0_pay4 (F := Ideal) i) (k0_pay12 (F := Ideal) x0 x1 x2 x3))
        (k0_pay21 (F := Ideal) (k0_pay4 (F := Ideal) i) (k0_pay9 (F := Ideal) x1 x2))) := by
  unfold out0_8
  rw [View.canon_unit_zero hz2]
  simp only [View.ld_unit_zero (S := S16x1024) hz2, View.ld_unit_zero (S := S32x16) hz2]

theorem out9_eq : out0_9 (F := Ideal) i x0 x1 x2 x3
    = k0_pay3 (F := Ideal) (k0_pay28 (F := Ideal) (k0_pay14 (F := Ideal) (k0_pay4 (F := Ideal) i) (k0_pay8 (F := Ideal) x0 x3))
        (k0_pay15 (F := Ideal) (k0_pay4 (F := Ideal) i) (k0_pay9 (F := Ideal) x1 x2))
        (k0_pay16 (F := Ideal) (k0_pay4 (F := Ideal) i) (k0_pay11 (F := Ideal) x0 x1 x2 x3))
        (k0_pay20 (F := Ideal) (k0_pay4 (F := Ideal) i) (k0_pay8 (F := Ideal) x0 x3))
        (k0_pay22 (F := Ideal) (k0_pay4 (F := Ideal) i) (k0_pay8 (F := Ideal) x0 x3) (k0_pay9 (F := Ideal) x1 x2))
        (k0_pay23 (F := Ideal) (k0_pay4 (F := Ideal) i) (k0_pay8 (F := Ideal) x0 x3) (k0_pay9 (F := Ideal) x1 x2))
        (Scalar.ofBits .f32 0x2B8CBCCC#32)) := by
  unfold out0_9
  rw [View.canon_unit_zero hz2]
  simp only [View.ld_unit_zero (S := S16x1024) hz2, View.ld_unit_zero (S := S32x16) hz2]

end Payloads

variable (i : grid0.Coords) (ti : Fin 32) (hti : (i 0).val = ti.val)
  (l u : Vec Ideal S16x1024 .f32) (lT uT : Vec Ideal S32x16 .f32)
  (hl : ∀ (r : Fin 32) (b : Fin 16), lT (ix2 r b) = l (ix2 b (tileRow ti r)))
  (hu : ∀ (r : Fin 32) (b : Fin 16), uT (ix2 r b) = u (ix2 b (tileRow ti r)))

include hti hl hu

/-! ## The pieces at the tile's row -/

/-- The lower end of the pair `(r, j)` of the tile is `lo` at the tile's row. -/
theorem kLo (b : Fin 16) (r : Fin 32) (j : Fin 1024) :
    k0_pay6 (F := Ideal) l uT (ix3 b r j) = lo l u b (tileRow ti r) j := by
  rw [pay6_apply l uT b r j, hu r b]; rfl
/-- Its upper end is `hi` there. -/
theorem kHi (b : Fin 16) (r : Fin 32) (j : Fin 1024) :
    k0_pay7 (F := Ideal) u lT (ix3 b r j) = hi l u b (tileRow ti r) j := by
  rw [pay7_apply u lT b r j, hl r b]; rfl

/-- A cube that is elementwise `Q` of the two ends is `Q` of `lo`, `hi` at the tile's row. -/
theorem kQ (Q : EReal → EReal → EReal) (X : FVec Ideal S16x32x1024 .f32)
    (hQ : ∀ y, X y = Q (k0_pay6 (F := Ideal) l uT y) (k0_pay7 (F := Ideal) u lT y)) (b : Fin 16) (r : Fin 32) (j : Fin 1024) :
    X (ix3 b r j) = Q (lo l u b (tileRow ti r) j) (hi l u b (tileRow ti r) j) := by
  rw [hQ (ix3 b r j), kLo i ti hti l u lT uT hl hu b r j, kHi i ti hti l u lT uT hl hu b r j]

/-- Its masked sum along the last axis is the specification's row sum of `Q`. -/
theorem kRowSum (Q : EReal → EReal → EReal) (X : FVec Ideal S16x32x1024 .f32)
    (hQ : ∀ y, X y = Q (k0_pay6 (F := Ideal) l uT y) (k0_pay7 (F := Ideal) u lT y)) (b : Fin 16) (r : Fin 32) :
    k0_pay14 (F := Ideal) (k0_pay4 (F := Ideal) i) X (ix2 b r) = rowSum l u Q b (tileRow ti r) := by
  rw [pay14_apply]
  unfold rowSum offd
  exact Finset.sum_congr rfl fun q _ => by
    rw [kQ i ti hti l u lT uT hl hu Q X hQ b r q, pay4_apply i ti hti r q]

theorem kSlo (b : Fin 16) (r : Fin 32) :
    k0_pay14 (F := Ideal) (k0_pay4 (F := Ideal) i) (k0_pay8 (F := Ideal) l uT) (ix2 b r) = Slo l u b (tileRow ti r) :=
  kRowSum i ti hti l u lT uT hl hu expLo _ (fun y => pay8_eq l u lT uT y) b r
theorem kShi (b : Fin 16) (r : Fin 32) :
    k0_pay15 (F := Ideal) (k0_pay4 (F := Ideal) i) (k0_pay9 (F := Ideal) u lT) (ix2 b r) = Shi l u b (tileRow ti r) := by
  rw [pay15_eq]
  exact kRowSum i ti hti l u lT uT hl hu expHi _ (fun y => pay9_eq l u lT uT y) b r
theorem kSecI (b : Fin 16) (r : Fin 32) :
    k0_pay16 (F := Ideal) (k0_pay4 (F := Ideal) i) (k0_pay11 (F := Ideal) l u lT uT) (ix2 b r)
      = rowSum l u secIcpt b (tileRow ti r) := by
  rw [pay16_eq]
  exact kRowSum i ti hti l u lT uT hl hu secIcpt _ (fun y => pay11_eq l u lT uT y) b r
theorem kTanI (b : Fin 16) (r : Fin 32) :
    k0_pay17 (F := Ideal) (k0_pay4 (F := Ideal) i) (k0_pay12 (F := Ideal) l u lT uT) (ix2 b r)
      = rowSum l u tanIcpt b (tileRow ti r) := by
  rw [pay17_eq]
  exact kRowSum i ti hti l u lT uT hl hu tanIcpt _ (fun y => tanIcpt_eq l u lT uT y) b r

theorem kCoefSec (b : Fin 16) (r : Fin 32) (j : Fin 1024) :
    k0_pay18 (F := Ideal) (k0_pay4 (F := Ideal) i) (k0_pay5 (F := Ideal) i) (k0_pay10 (F := Ideal) l u lT uT) (ix3 b r j)
      = coefS l u secSlope b (tileRow ti r) j := by
  rw [pay18_apply, kRowSum i ti hti l u lT uT hl hu secSlope _ (fun y => pay10_eq l u lT uT y) b r,
    kQ i ti hti l u lT uT hl hu secSlope _ (fun y => pay10_eq l u lT uT y) b r j, pay4_apply i ti hti r j, pay5_apply i ti hti r j]
  rfl
theorem kCoefTan (b : Fin 16) (r : Fin 32) (j : Fin 1024) :
    k0_pay19 (F := Ideal) (k0_pay4 (F := Ideal) i) (k0_pay5 (F := Ideal) i) (k0_pay12 (F := Ideal) l u lT uT) (ix3 b r j)
      = coefS l u tanSlope b (tileRow ti r) j := by
  rw [pay19_apply, kRowSum i ti hti l u lT uT hl hu tanSlope _ (fun y => pay13_eq l u lT uT y) b r,
    kQ i ti hti l u lT uT hl hu tanSlope _ (fun y => pay13_eq l u lT uT y) b r j, pay4_apply i ti hti r j, pay5_apply i ti hti r j]
  rfl

theorem kRecipLo (b : Fin 16) (r : Fin 32) :
    k0_pay20 (F := Ideal) (k0_pay4 (F := Ideal) i) (k0_pay8 (F := Ideal) l uT) (ix2 b r) = recip (Slo l u b (tileRow ti r)) := by
  rw [pay20_eq, kSlo i ti hti l u lT uT hl hu b r]
theorem kRecipHi (b : Fin 16) (r : Fin 32) :
    k0_pay21 (F := Ideal) (k0_pay4 (F := Ideal) i) (k0_pay9 (F := Ideal) u lT) (ix2 b r) = recip (Shi l u b (tileRow ti r)) := by
  rw [pay21_eq, kShi i ti hti l u lT uT hl hu b r]
theorem kSecG (b : Fin 16) (r : Fin 32) :
    k0_pay24 (F := Ideal) (k0_pay15 (F := Ideal) (k0_pay4 (F := Ideal) i) (k0_pay9 (F := Ideal) u lT))
        (k0_pay22 (F := Ideal) (k0_pay4 (F := Ideal) i) (k0_pay8 (F := Ideal) l uT) (k0_pay9 (F := Ideal) u lT))
        (k0_pay23 (F := Ideal) (k0_pay4 (F := Ideal) i) (k0_pay8 (F := Ideal) l uT) (k0_pay9 (F := Ideal) u lT))
        (Scalar.ofBits .f32 0x2B8CBCCC#32) (ix2 b r)
      = secG (Slo l u b (tileRow ti r)) (Shi l u b (tileRow ti r)) := by
  rw [pay24_eq, pay22_eq, pay23_eq, kRecipHi i ti hti l u lT uT hl hu b r, kRecipLo i ti hti l u lT uT hl hu b r,
    kShi i ti hti l u lT uT hl hu b r, kSlo i ti hti l u lT uT hl hu b r]
  rfl

/-! ## The six blocks -/

theorem out4_apply (r : Fin 32) (b : Fin 16) :
    out0_4 (F := Ideal) i l u lT uT (ix2 r b) = softLower l u (ix2 b (tileRow ti r)) := by
  rw [out4_eq, pay31_apply, kRecipHi i ti hti l u lT uT hl hu b r]; rfl
theorem out5_apply (r : Fin 32) (b : Fin 16) :
    out0_5 (F := Ideal) i l u lT uT (ix2 r b) = softUpper l u (ix2 b (tileRow ti r)) := by
  rw [out5_eq, pay1_apply, pay30_eq, kRecipLo i ti hti l u lT uT hl hu b r]; rfl
theorem out6_apply (b : Fin 16) (r : Fin 32) (j : Fin 1024) :
    out0_6 (F := Ideal) i l u lT uT (ix3 b r j) = lowerCoef l u (ix3 b (tileRow ti r) j) := by
  rw [out6_eq, pay27_apply, pay25_eq, kShi i ti hti l u lT uT hl hu b r, kCoefTan i ti hti l u lT uT hl hu b r j]; rfl
theorem out7_apply (b : Fin 16) (r : Fin 32) (j : Fin 1024) :
    out0_7 (F := Ideal) i l u lT uT (ix3 b r j) = upperCoef l u (ix3 b (tileRow ti r) j) := by
  rw [out7_eq, pay26_apply, kSecG i ti hti l u lT uT hl hu b r, kCoefSec i ti hti l u lT uT hl hu b r j]; rfl
theorem out8_apply (r : Fin 32) (b : Fin 16) :
    out0_8 (F := Ideal) i l u lT uT (ix2 r b) = lowerBias l u (ix2 b (tileRow ti r)) := by
  rw [out8_eq, pay2_apply, pay29_eq, pay25_eq, kShi i ti hti l u lT uT hl hu b r, kTanI i ti hti l u lT uT hl hu b r,
    kRecipHi i ti hti l u lT uT hl hu b r]; rfl
theorem out9_apply (r : Fin 32) (b : Fin 16) :
    out0_9 (F := Ideal) i l u lT uT (ix2 r b) = upperBias l u (ix2 b (tileRow ti r)) := by
  rw [out9_eq, pay3_apply, pay28_eq, kSecG i ti hti l u lT uT hl hu b r, kSecI i ti hti l u lT uT hl hu b r,
    kRecipLo i ti hti l u lT uT hl hu b r, kSlo i ti hti l u lT uT hl hu b r]; rfl

end Cert.KernelIdeal.BlockValue

end
-- ==== Proof.KernelValue.lean ====
/-
  The kernel's six result arrays after its run, as the functions of Proof/BoundSpec.lean of its two arguments.

  The grid has 32 points; point `t` sees the two whole inputs and rows `32·t … 32·t+31` of their transposes (made by the
  two host transposes before the region), and writes rows `32·t … 32·t+31` of each output. What it writes is, index by
  index, the specification at that row (Proof/KernelBlock.lean), so every output array — whose 32 blocks tile it — ends
  holding the specification's function: the two coefficient arrays as they are, the four per-row arrays with the rows
  first (1024 × 16), which the four host transposes after the region turn back.
-/
import proofs.«157890_j59949153518086_1_alg».proof.Proof.KernelBlock
import Idealize.ShloMosaic.Lib.Pipeline.Value
import Idealize.ShloMosaic.Lib.StableHlo.Run
import Idealize.ShloMosaic.Lib.ValueLayout

set_option maxRecDepth 16384

noncomputable section

namespace Cert.KernelIdeal.ArrValue

open Cert.KernelIdeal Cert.KernelIdeal.Gen Cert.KernelIdeal.GenP Cert.KernelIdeal.BlockValue Cert.BoundSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two arguments as launched. -/
abbrev larr (c : Dev nD) : FVec Ideal SRow .f32 := m ((c : Thread nD τ).loc main_arg0)
abbrev uarr (c : Dev nD) : FVec Ideal SRow .f32 := m ((c : Thread nD τ).loc main_arg1)

/-- A per-row result laid out with the rows first: entry `(i, b)` of the 1024 × 16 array is entry `(b, i)` of the result. -/
def rowsFirst (G : FVec Ideal SRow .f32) : S1024x16.Idx → EReal := fun y => G (ix2 (y 1) (y 0))

/-- A grid point as a number below 32. -/
def pt (t : Fin cfg0.N) : Fin 32 := ⟨t.val, lt_of_lt_of_eq t.isLt N_0⟩

/-! ## The printed index maps, decided over the 32 points -/

theorem coords_val : ∀ t : Fin cfg0.N, (grid0.coords t 0).val = (pt t).val :=
  (by decide +kernel : ∀ t : Fin grid0.N, (grid0.coords t 0).val = t.val)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)
theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ## The arrays the region finds -/

/-- The first transposed input is the first argument, transposed. -/
theorem V_v0 (c : Dev nD) (i : Fin 1024) (b : Fin 16) : V m c main_v0 (ix2 i b) = larr m c (ix2 b i) := by
  have e : (V m c main_v0 : S1024x16.Idx → EReal)
      = transpose S1024x16 [1, 0] (larr m c) transposes_S16x1024_S1024x16_1_0 := by
    show StableHlo.after hostOps0 (fun b => m (c, b)) (Proc.devRef .tc main_v0) = _
    after_results
  rw [e]
  exact transpose_ix2_apply _ _ _ _

/-! ## The input blocks at a point -/

abbrev lblk (c : Dev nD) (t : Fin cfg0.N) : Vec Ideal S16x1024 .f32 := iblk m c 0 t
abbrev lTblk (c : Dev nD) (t : Fin cfg0.N) : Vec Ideal S32x16 .f32 := iblk m c 2 t

/-- The block of the first input is the whole first argument. -/
theorem lblk_eq (c : Dev nD) (t : Fin cfg0.N) : lblk m c t = larr m c := by
  funext y
  show V m c main_arg0 (((cfg0.win 0).blk t).view.emb y) = larr m c y
  rw [V_main_arg0]
  obtain ⟨e0, e1⟩ := idx0 t
  refine congrArg _ (funext fun a => Fin.ext ?_)
  match a with
  | ⟨0, _⟩ => show win0_0.index t (0 : Fin 2) * 16 + 1 * (y 0).val = (y 0).val; omega
  | ⟨1, _⟩ => show win0_0.index t (1 : Fin 2) * 1024 + 1 * (y 1).val = (y 1).val; omega

/-- The block of the first transposed input holds rows `32·t …` of the first argument, transposed. -/
theorem lTblk_apply (c : Dev nD) (t : Fin cfg0.N) (r : Fin 32) (b : Fin 16) :
    lTblk m c t (ix2 r b) = lblk m c t (ix2 b (tileRow (pt t) r)) := by
  rw [lblk_eq]
  show V m c main_v0 (((cfg0.win 2).blk t).view.emb (ix2 r b)) = _
  have hemb : ((cfg0.win 2).blk t).view.emb (ix2 r b) = ix2 (tileRow (pt t) r) b := by
    obtain ⟨e0, e1⟩ := idx2 t
    funext a; apply Fin.ext
    match a with
    | ⟨0, _⟩ => show win0_2.index t (0 : Fin 2) * 32 + 1 * r.val = 32 * t.val + r.val; omega
    | ⟨1, _⟩ => show win0_2.index t (1 : Fin 2) * 16 + 1 * b.val = b.val; omega
  rw [hemb]
  exact V_v0 m c _ _

/-- The second transposed input is the second argument, transposed. -/
theorem V_v1 (c : Dev nD) (i : Fin 1024) (b : Fin 16) : V m c main_v1 (ix2 i b) = uarr m c (ix2 b i) := by
  have e : (V m c main_v1 : S1024x16.Idx → EReal)
      = transpose S1024x16 [1, 0] (uarr m c) transposes_S16x1024_S1024x16_1_0 := by
    show StableHlo.after hostOps0 (fun b => m (c, b)) (Proc.devRef .tc main_v1) = _
    after_results
  rw [e]
  exact transpose_ix2_apply _ _ _ _

abbrev ublk (c : Dev nD) (t : Fin cfg0.N) : Vec Ideal S16x1024 .f32 := iblk m c 1 t
abbrev uTblk (c : Dev nD) (t : Fin cfg0.N) : Vec Ideal S32x16 .f32 := iblk m c 3 t

/-- The block of the second input is the whole second argument. -/
theorem ublk_eq (c : Dev nD) (t : Fin cfg0.N) : ublk m c t = uarr m c := by
  funext y
  show V m c main_arg1 (((cfg0.win 1).blk t).view.emb y) = uarr m c y
  rw [V_main_arg1]
  obtain ⟨e0, e1⟩ := idx1 t
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 1024 + 1 * (y 1).val = (y 1).val; omega

/-- The block of the second transposed input holds rows `32·t …` of the second argument, transposed. -/
theorem uTblk_apply (c : Dev nD) (t : Fin cfg0.N) (r : Fin 32) (b : Fin 16) :
    uTblk m c t (ix2 r b) = ublk m c t (ix2 b (tileRow (pt t) r)) := by
  rw [ublk_eq]
  show V m c main_v1 (((cfg0.win 3).blk t).view.emb (ix2 r b)) = _
  have hemb : ((cfg0.win 3).blk t).view.emb (ix2 r b) = ix2 (tileRow (pt t) r) b := by
    obtain ⟨e0, e1⟩ := idx3 t
    funext a; apply Fin.ext
    match a with
    | ⟨0, _⟩ => show win0_3.index t (0 : Fin 2) * 32 + 1 * r.val = 32 * t.val + r.val; omega
    | ⟨1, _⟩ => show win0_3.index t (1 : Fin 2) * 16 + 1 * b.val = b.val; omega
  rw [hemb]
  exact V_v1 m c _ _

/-! ## Output window 4: the clipped lower bound, rows first -/

/-- What point `t` leaves in the block, at an index, is the result at row `32·t + r`. -/
theorem blk4 (c : Dev nD) (t : Fin cfg0.N) (y : S32x16.Idx) :
    out0_4 (F := Ideal) (grid0.coords t) (lblk m c t) (ublk m c t) (lTblk m c t) (uTblk m c t) y
      = rowsFirst (softLower (larr m c) (uarr m c)) (((cfg0.win 4).blk t).view.emb y) := by
  obtain ⟨r, b, rfl⟩ : ∃ (r : Fin 32) (b : Fin 16), y = ix2 r b := ⟨y 0, y 1, eq_ix2 y⟩
  rw [out4_apply (grid0.coords t) (pt t) (coords_val t) (lblk m c t) (ublk m c t) (lTblk m c t) (uTblk m c t)
    (lTblk_apply m c t) (uTblk_apply m c t) r b, lblk_eq, ublk_eq]
  have hemb : ((cfg0.win 4).blk t).view.emb (ix2 r b) = ix2 (tileRow (pt t) r) b := by
    obtain ⟨e0, e1⟩ := idx4 t
    funext a; apply Fin.ext
    match a with
    | ⟨0, _⟩ => show win0_4.index t (0 : Fin 2) * 32 + 1 * r.val = 32 * t.val + r.val; omega
    | ⟨1, _⟩ => show win0_4.index t (1 : Fin 2) * 16 + 1 * b.val = b.val; omega
  rw [hemb]
  rfl

theorem flushed4_eq (c : Dev nD) (t : Fin cfg0.N) :
    (dats m 0 c).flushed 4 t = ((cfg0.win 4).blk t).view.read (Elt Ideal) (rowsFirst (softLower (larr m c) (uarr m c))) := by
  show (cfg0.win 4).cut (grid0.coords t) ((dats m 0 c).after 4 t) = _
  rw [after0_4]
  funext y
  exact blk4 m c t y

theorem mem_blk4 (t : Fin cfg0.N) (i : S1024x16.Idx) :
    i ∈ ((cfg0.win 4).blk t).view.set ↔ ∀ a : Fin 2, win0_4.index t a * S32x16.size a ≤ (i a).val ∧ (i a).val < win0_4.index t a * S32x16.size a + S32x16.size a := by
  show i ∈ ((View.whole main_v2_0).slice (win0_4.rect t)).set ↔ _
  rw [View.set_slice_whole, Rect.mem_set_unit]
  exact Iff.rfl

/-- Row `i` lies in the block of point `i / 32`. -/
theorem cover4 (i : S1024x16.Idx) : ∃ t : Fin cfg0.N, (cfg0.win 4).flush t = true ∧ i ∈ ((cfg0.win 4).blk t).view.set := by
  have hi0 : (i 0).val < 1024 := (i 0).isLt
  have hi1 : (i 1).val < 16 := (i 1).isLt
  have hlt : (i 0).val / 32 < cfg0.N := by rw [show cfg0.N = 32 from N_0]; omega
  refine ⟨⟨(i 0).val / 32, hlt⟩, flush0_4 _, ?_⟩
  rw [mem_blk4]
  obtain ⟨e0, e1⟩ := idx4 ⟨(i 0).val / 32, hlt⟩
  have e0' : win0_4.index ⟨(i 0).val / 32, hlt⟩ (0 : Fin 2) = (i 0).val / 32 := e0
  intro a
  match a with
  | ⟨0, _⟩ => show win0_4.index ⟨(i 0).val / 32, hlt⟩ (0 : Fin 2) * 32 ≤ (i 0).val ∧ (i 0).val < win0_4.index ⟨(i 0).val / 32, hlt⟩ (0 : Fin 2) * 32 + 32; omega
  | ⟨1, _⟩ => show win0_4.index ⟨(i 0).val / 32, hlt⟩ (1 : Fin 2) * 16 ≤ (i 1).val ∧ (i 1).val < win0_4.index ⟨(i 0).val / 32, hlt⟩ (1 : Fin 2) * 16 + 16; omega

/-- The array after the run. -/
theorem final4 (c : Dev nD) : (dats m 0 c).arrAt 4 cfg0.N = rowsFirst (softLower (larr m c) (uarr m c)) :=
  (dats m 0 c).arrAt_eq_of_cover 4 _ (fun t _ => flushed4_eq m c t) cover4

/-- A rows-first array transposed by the host is the result. -/
theorem transpose_rowsFirst (G : FVec Ideal SRow .f32) :
    transpose S16x1024 [1, 0] (rowsFirst G) transposes_S1024x16_S16x1024_1_0 = G := by
  funext y
  obtain ⟨b, i, rfl⟩ : ∃ (b : Fin 16) (i : Fin 1024), y = ix2 b i := ⟨y 0, y 1, eq_ix2 y⟩
  rw [transpose_ix2_apply]
  rfl

/-- The first result: the host transposes window 4's array back. -/
theorem tail_v3 (c : Dev nD) :
    Pipeline.afterTail₀ cfgs (dats m) 0 (V0 m) [hostOps1] c main_v3 = softLower (larr m c) (uarr m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = rowsFirst (softLower (larr m c) (uarr m c)) :=
    (Pipeline.withArrays_arr spec0 launch0.win.arr_inj c _ _ 4).trans (final4 m c)
  rw [e]
  exact transpose_rowsFirst _

/-! ## Output window 5: the clipped upper bound, rows first -/

/-- What point `t` leaves in the block, at an index, is the result at row `32·t + r`. -/
theorem blk5 (c : Dev nD) (t : Fin cfg0.N) (y : S32x16.Idx) :
    out0_5 (F := Ideal) (grid0.coords t) (lblk m c t) (ublk m c t) (lTblk m c t) (uTblk m c t) y
      = rowsFirst (softUpper (larr m c) (uarr m c)) (((cfg0.win 5).blk t).view.emb y) := by
  obtain ⟨r, b, rfl⟩ : ∃ (r : Fin 32) (b : Fin 16), y = ix2 r b := ⟨y 0, y 1, eq_ix2 y⟩
  rw [out5_apply (grid0.coords t) (pt t) (coords_val t) (lblk m c t) (ublk m c t) (lTblk m c t) (uTblk m c t)
    (lTblk_apply m c t) (uTblk_apply m c t) r b, lblk_eq, ublk_eq]
  have hemb : ((cfg0.win 5).blk t).view.emb (ix2 r b) = ix2 (tileRow (pt t) r) b := by
    obtain ⟨e0, e1⟩ := idx5 t
    funext a; apply Fin.ext
    match a with
    | ⟨0, _⟩ => show win0_5.index t (0 : Fin 2) * 32 + 1 * r.val = 32 * t.val + r.val; omega
    | ⟨1, _⟩ => show win0_5.index t (1 : Fin 2) * 16 + 1 * b.val = b.val; omega
  rw [hemb]
  rfl

theorem flushed5_eq (c : Dev nD) (t : Fin cfg0.N) :
    (dats m 0 c).flushed 5 t = ((cfg0.win 5).blk t).view.read (Elt Ideal) (rowsFirst (softUpper (larr m c) (uarr m c))) := by
  show (cfg0.win 5).cut (grid0.coords t) ((dats m 0 c).after 5 t) = _
  rw [after0_5]
  funext y
  exact blk5 m c t y

theorem mem_blk5 (t : Fin cfg0.N) (i : S1024x16.Idx) :
    i ∈ ((cfg0.win 5).blk t).view.set ↔ ∀ a : Fin 2, win0_5.index t a * S32x16.size a ≤ (i a).val ∧ (i a).val < win0_5.index t a * S32x16.size a + S32x16.size a := by
  show i ∈ ((View.whole main_v2_1).slice (win0_5.rect t)).set ↔ _
  rw [View.set_slice_whole, Rect.mem_set_unit]
  exact Iff.rfl

/-- Row `i` lies in the block of point `i / 32`. -/
theorem cover5 (i : S1024x16.Idx) : ∃ t : Fin cfg0.N, (cfg0.win 5).flush t = true ∧ i ∈ ((cfg0.win 5).blk t).view.set := by
  have hi0 : (i 0).val < 1024 := (i 0).isLt
  have hi1 : (i 1).val < 16 := (i 1).isLt
  have hlt : (i 0).val / 32 < cfg0.N := by rw [show cfg0.N = 32 from N_0]; omega
  refine ⟨⟨(i 0).val / 32, hlt⟩, flush0_5 _, ?_⟩
  rw [mem_blk5]
  obtain ⟨e0, e1⟩ := idx5 ⟨(i 0).val / 32, hlt⟩
  have e0' : win0_5.index ⟨(i 0).val / 32, hlt⟩ (0 : Fin 2) = (i 0).val / 32 := e0
  intro a
  match a with
  | ⟨0, _⟩ => show win0_5.index ⟨(i 0).val / 32, hlt⟩ (0 : Fin 2) * 32 ≤ (i 0).val ∧ (i 0).val < win0_5.index ⟨(i 0).val / 32, hlt⟩ (0 : Fin 2) * 32 + 32; omega
  | ⟨1, _⟩ => show win0_5.index ⟨(i 0).val / 32, hlt⟩ (1 : Fin 2) * 16 ≤ (i 1).val ∧ (i 1).val < win0_5.index ⟨(i 0).val / 32, hlt⟩ (1 : Fin 2) * 16 + 16; omega

/-- The array after the run. -/
theorem final5 (c : Dev nD) : (dats m 0 c).arrAt 5 cfg0.N = rowsFirst (softUpper (larr m c) (uarr m c)) :=
  (dats m 0 c).arrAt_eq_of_cover 5 _ (fun t _ => flushed5_eq m c t) cover5

/-- The second result: the host transposes window 5's array back. -/
theorem tail_v4 (c : Dev nD) :
    Pipeline.afterTail₀ cfgs (dats m) 0 (V0 m) [hostOps1] c main_v4 = softUpper (larr m c) (uarr m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = rowsFirst (softUpper (larr m c) (uarr m c)) :=
    (Pipeline.withArrays_arr spec0 launch0.win.arr_inj c _ _ 5).trans (final5 m c)
  rw [e]
  exact transpose_rowsFirst _

/-! ## Output window 8: the lower bound's bias, rows first -/

/-- What point `t` leaves in the block, at an index, is the result at row `32·t + r`. -/
theorem blk8 (c : Dev nD) (t : Fin cfg0.N) (y : S32x16.Idx) :
    out0_8 (F := Ideal) (grid0.coords t) (lblk m c t) (ublk m c t) (lTblk m c t) (uTblk m c t) y
      = rowsFirst (lowerBias (larr m c) (uarr m c)) (((cfg0.win 8).blk t).view.emb y) := by
  obtain ⟨r, b, rfl⟩ : ∃ (r : Fin 32) (b : Fin 16), y = ix2 r b := ⟨y 0, y 1, eq_ix2 y⟩
  rw [out8_apply (grid0.coords t) (pt t) (coords_val t) (lblk m c t) (ublk m c t) (lTblk m c t) (uTblk m c t)
    (lTblk_apply m c t) (uTblk_apply m c t) r b, lblk_eq, ublk_eq]
  have hemb : ((cfg0.win 8).blk t).view.emb (ix2 r b) = ix2 (tileRow (pt t) r) b := by
    obtain ⟨e0, e1⟩ := idx8 t
    funext a; apply Fin.ext
    match a with
    | ⟨0, _⟩ => show win0_8.index t (0 : Fin 2) * 32 + 1 * r.val = 32 * t.val + r.val; omega
    | ⟨1, _⟩ => show win0_8.index t (1 : Fin 2) * 16 + 1 * b.val = b.val; omega
  rw [hemb]
  rfl

theorem flushed8_eq (c : Dev nD) (t : Fin cfg0.N) :
    (dats m 0 c).flushed 8 t = ((cfg0.win 8).blk t).view.read (Elt Ideal) (rowsFirst (lowerBias (larr m c) (uarr m c))) := by
  show (cfg0.win 8).cut (grid0.coords t) ((dats m 0 c).after 8 t) = _
  rw [after0_8]
  funext y
  exact blk8 m c t y

theorem mem_blk8 (t : Fin cfg0.N) (i : S1024x16.Idx) :
    i ∈ ((cfg0.win 8).blk t).view.set ↔ ∀ a : Fin 2, win0_8.index t a * S32x16.size a ≤ (i a).val ∧ (i a).val < win0_8.index t a * S32x16.size a + S32x16.size a := by
  show i ∈ ((View.whole main_v2_4).slice (win0_8.rect t)).set ↔ _
  rw [View.set_slice_whole, Rect.mem_set_unit]
  exact Iff.rfl

/-- Row `i` lies in the block of point `i / 32`. -/
theorem cover8 (i : S1024x16.Idx) : ∃ t : Fin cfg0.N, (cfg0.win 8).flush t = true ∧ i ∈ ((cfg0.win 8).blk t).view.set := by
  have hi0 : (i 0).val < 1024 := (i 0).isLt
  have hi1 : (i 1).val < 16 := (i 1).isLt
  have hlt : (i 0).val / 32 < cfg0.N := by rw [show cfg0.N = 32 from N_0]; omega
  refine ⟨⟨(i 0).val / 32, hlt⟩, flush0_8 _, ?_⟩
  rw [mem_blk8]
  obtain ⟨e0, e1⟩ := idx8 ⟨(i 0).val / 32, hlt⟩
  have e0' : win0_8.index ⟨(i 0).val / 32, hlt⟩ (0 : Fin 2) = (i 0).val / 32 := e0
  intro a
  match a with
  | ⟨0, _⟩ => show win0_8.index ⟨(i 0).val / 32, hlt⟩ (0 : Fin 2) * 32 ≤ (i 0).val ∧ (i 0).val < win0_8.index ⟨(i 0).val / 32, hlt⟩ (0 : Fin 2) * 32 + 32; omega
  | ⟨1, _⟩ => show win0_8.index ⟨(i 0).val / 32, hlt⟩ (1 : Fin 2) * 16 ≤ (i 1).val ∧ (i 1).val < win0_8.index ⟨(i 0).val / 32, hlt⟩ (1 : Fin 2) * 16 + 16; omega

/-- The array after the run. -/
theorem final8 (c : Dev nD) : (dats m 0 c).arrAt 8 cfg0.N = rowsFirst (lowerBias (larr m c) (uarr m c)) :=
  (dats m 0 c).arrAt_eq_of_cover 8 _ (fun t _ => flushed8_eq m c t) cover8

/-- The fifth result: the host transposes window 8's array back. -/
theorem tail_v5 (c : Dev nD) :
    Pipeline.afterTail₀ cfgs (dats m) 0 (V0 m) [hostOps1] c main_v5 = lowerBias (larr m c) (uarr m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2_4)
      = rowsFirst (lowerBias (larr m c) (uarr m c)) :=
    (Pipeline.withArrays_arr spec0 launch0.win.arr_inj c _ _ 8).trans (final8 m c)
  rw [e]
  exact transpose_rowsFirst _

/-! ## Output window 9: the upper bound's bias, rows first -/

/-- What point `t` leaves in the block, at an index, is the result at row `32·t + r`. -/
theorem blk9 (c : Dev nD) (t : Fin cfg0.N) (y : S32x16.Idx) :
    out0_9 (F := Ideal) (grid0.coords t) (lblk m c t) (ublk m c t) (lTblk m c t) (uTblk m c t) y
      = rowsFirst (upperBias (larr m c) (uarr m c)) (((cfg0.win 9).blk t).view.emb y) := by
  obtain ⟨r, b, rfl⟩ : ∃ (r : Fin 32) (b : Fin 16), y = ix2 r b := ⟨y 0, y 1, eq_ix2 y⟩
  rw [out9_apply (grid0.coords t) (pt t) (coords_val t) (lblk m c t) (ublk m c t) (lTblk m c t) (uTblk m c t)
    (lTblk_apply m c t) (uTblk_apply m c t) r b, lblk_eq, ublk_eq]
  have hemb : ((cfg0.win 9).blk t).view.emb (ix2 r b) = ix2 (tileRow (pt t) r) b := by
    obtain ⟨e0, e1⟩ := idx9 t
    funext a; apply Fin.ext
    match a with
    | ⟨0, _⟩ => show win0_9.index t (0 : Fin 2) * 32 + 1 * r.val = 32 * t.val + r.val; omega
    | ⟨1, _⟩ => show win0_9.index t (1 : Fin 2) * 16 + 1 * b.val = b.val; omega
  rw [hemb]
  rfl

theorem flushed9_eq (c : Dev nD) (t : Fin cfg0.N) :
    (dats m 0 c).flushed 9 t = ((cfg0.win 9).blk t).view.read (Elt Ideal) (rowsFirst (upperBias (larr m c) (uarr m c))) := by
  show (cfg0.win 9).cut (grid0.coords t) ((dats m 0 c).after 9 t) = _
  rw [after0_9]
  funext y
  exact blk9 m c t y

theorem mem_blk9 (t : Fin cfg0.N) (i : S1024x16.Idx) :
    i ∈ ((cfg0.win 9).blk t).view.set ↔ ∀ a : Fin 2, win0_9.index t a * S32x16.size a ≤ (i a).val ∧ (i a).val < win0_9.index t a * S32x16.size a + S32x16.size a := by
  show i ∈ ((View.whole main_v2_5).slice (win0_9.rect t)).set ↔ _
  rw [View.set_slice_whole, Rect.mem_set_unit]
  exact Iff.rfl

/-- Row `i` lies in the block of point `i / 32`. -/
theorem cover9 (i : S1024x16.Idx) : ∃ t : Fin cfg0.N, (cfg0.win 9).flush t = true ∧ i ∈ ((cfg0.win 9).blk t).view.set := by
  have hi0 : (i 0).val < 1024 := (i 0).isLt
  have hi1 : (i 1).val < 16 := (i 1).isLt
  have hlt : (i 0).val / 32 < cfg0.N := by rw [show cfg0.N = 32 from N_0]; omega
  refine ⟨⟨(i 0).val / 32, hlt⟩, flush0_9 _, ?_⟩
  rw [mem_blk9]
  obtain ⟨e0, e1⟩ := idx9 ⟨(i 0).val / 32, hlt⟩
  have e0' : win0_9.index ⟨(i 0).val / 32, hlt⟩ (0 : Fin 2) = (i 0).val / 32 := e0
  intro a
  match a with
  | ⟨0, _⟩ => show win0_9.index ⟨(i 0).val / 32, hlt⟩ (0 : Fin 2) * 32 ≤ (i 0).val ∧ (i 0).val < win0_9.index ⟨(i 0).val / 32, hlt⟩ (0 : Fin 2) * 32 + 32; omega
  | ⟨1, _⟩ => show win0_9.index ⟨(i 0).val / 32, hlt⟩ (1 : Fin 2) * 16 ≤ (i 1).val ∧ (i 1).val < win0_9.index ⟨(i 0).val / 32, hlt⟩ (1 : Fin 2) * 16 + 16; omega

/-- The array after the run. -/
theorem final9 (c : Dev nD) : (dats m 0 c).arrAt 9 cfg0.N = rowsFirst (upperBias (larr m c) (uarr m c)) :=
  (dats m 0 c).arrAt_eq_of_cover 9 _ (fun t _ => flushed9_eq m c t) cover9

/-- The sixth result: the host transposes window 9's array back. -/
theorem tail_v6 (c : Dev nD) :
    Pipeline.afterTail₀ cfgs (dats m) 0 (V0 m) [hostOps1] c main_v6 = upperBias (larr m c) (uarr m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v2_5)
      = rowsFirst (upperBias (larr m c) (uarr m c)) :=
    (Pipeline.withArrays_arr spec0 launch0.win.arr_inj c _ _ 9).trans (final9 m c)
  rw [e]
  exact transpose_rowsFirst _

/-! ## Output window 6: the lower bound's coefficients -/

/-- What point `t` leaves in the block, at an index, is the result at row `32·t + r`. -/
theorem blk6 (c : Dev nD) (t : Fin cfg0.N) (y : S16x32x1024.Idx) :
    out0_6 (F := Ideal) (grid0.coords t) (lblk m c t) (ublk m c t) (lTblk m c t) (uTblk m c t) y
      = lowerCoef (larr m c) (uarr m c) (((cfg0.win 6).blk t).view.emb y) := by
  obtain ⟨b, r, j, rfl⟩ : ∃ (b : Fin 16) (r : Fin 32) (j : Fin 1024), y = ix3 b r j := ⟨y 0, y 1, y 2, eq_ix3 y⟩
  rw [out6_apply (grid0.coords t) (pt t) (coords_val t) (lblk m c t) (ublk m c t) (lTblk m c t) (uTblk m c t)
    (lTblk_apply m c t) (uTblk_apply m c t) b r j, lblk_eq, ublk_eq]
  have hemb : ((cfg0.win 6).blk t).view.emb (ix3 b r j) = ix3 b (tileRow (pt t) r) j := by
    obtain ⟨e0, e1, e2⟩ := idx6 t
    funext a; apply Fin.ext
    match a with
    | ⟨0, _⟩ => show win0_6.index t (0 : Fin 3) * 16 + 1 * b.val = b.val; omega
    | ⟨1, _⟩ => show win0_6.index t (1 : Fin 3) * 32 + 1 * r.val = 32 * t.val + r.val; omega
    | ⟨2, _⟩ => show win0_6.index t (2 : Fin 3) * 1024 + 1 * j.val = j.val; omega
  rw [hemb]

theorem flushed6_eq (c : Dev nD) (t : Fin cfg0.N) :
    (dats m 0 c).flushed 6 t = ((cfg0.win 6).blk t).view.read (Elt Ideal) (lowerCoef (larr m c) (uarr m c)) := by
  show (cfg0.win 6).cut (grid0.coords t) ((dats m 0 c).after 6 t) = _
  rw [after0_6]
  funext y
  exact blk6 m c t y

theorem mem_blk6 (t : Fin cfg0.N) (i : S16x1024x1024.Idx) :
    i ∈ ((cfg0.win 6).blk t).view.set ↔ ∀ a : Fin 3, win0_6.index t a * S16x32x1024.size a ≤ (i a).val ∧ (i a).val < win0_6.index t a * S16x32x1024.size a + S16x32x1024.size a := by
  show i ∈ ((View.whole main_v2_2).slice (win0_6.rect t)).set ↔ _
  rw [View.set_slice_whole, Rect.mem_set_unit]
  exact Iff.rfl

/-- Row `i` lies in the block of point `i / 32`. -/
theorem cover6 (i : S16x1024x1024.Idx) : ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  have hlt : (i 1).val / 32 < cfg0.N := by rw [show cfg0.N = 32 from N_0]; omega
  refine ⟨⟨(i 1).val / 32, hlt⟩, flush0_6 _, ?_⟩
  rw [mem_blk6]
  obtain ⟨e0, e1, e2⟩ := idx6 ⟨(i 1).val / 32, hlt⟩
  have e1' : win0_6.index ⟨(i 1).val / 32, hlt⟩ (1 : Fin 3) = (i 1).val / 32 := e1
  intro a
  match a with
  | ⟨0, _⟩ => show win0_6.index ⟨(i 1).val / 32, hlt⟩ (0 : Fin 3) * 16 ≤ (i 0).val ∧ (i 0).val < win0_6.index ⟨(i 1).val / 32, hlt⟩ (0 : Fin 3) * 16 + 16; omega
  | ⟨1, _⟩ => show win0_6.index ⟨(i 1).val / 32, hlt⟩ (1 : Fin 3) * 32 ≤ (i 1).val ∧ (i 1).val < win0_6.index ⟨(i 1).val / 32, hlt⟩ (1 : Fin 3) * 32 + 32; omega
  | ⟨2, _⟩ => show win0_6.index ⟨(i 1).val / 32, hlt⟩ (2 : Fin 3) * 1024 ≤ (i 2).val ∧ (i 2).val < win0_6.index ⟨(i 1).val / 32, hlt⟩ (2 : Fin 3) * 1024 + 1024; omega

/-- The array after the run. -/
theorem final6 (c : Dev nD) : (dats m 0 c).arrAt 6 cfg0.N = lowerCoef (larr m c) (uarr m c) :=
  (dats m 0 c).arrAt_eq_of_cover 6 _ (fun t _ => flushed6_eq m c t) cover6

/-! ## Output window 7: the upper bound's coefficients -/

/-- What point `t` leaves in the block, at an index, is the result at row `32·t + r`. -/
theorem blk7 (c : Dev nD) (t : Fin cfg0.N) (y : S16x32x1024.Idx) :
    out0_7 (F := Ideal) (grid0.coords t) (lblk m c t) (ublk m c t) (lTblk m c t) (uTblk m c t) y
      = upperCoef (larr m c) (uarr m c) (((cfg0.win 7).blk t).view.emb y) := by
  obtain ⟨b, r, j, rfl⟩ : ∃ (b : Fin 16) (r : Fin 32) (j : Fin 1024), y = ix3 b r j := ⟨y 0, y 1, y 2, eq_ix3 y⟩
  rw [out7_apply (grid0.coords t) (pt t) (coords_val t) (lblk m c t) (ublk m c t) (lTblk m c t) (uTblk m c t)
    (lTblk_apply m c t) (uTblk_apply m c t) b r j, lblk_eq, ublk_eq]
  have hemb : ((cfg0.win 7).blk t).view.emb (ix3 b r j) = ix3 b (tileRow (pt t) r) j := by
    obtain ⟨e0, e1, e2⟩ := idx7 t
    funext a; apply Fin.ext
    match a with
    | ⟨0, _⟩ => show win0_7.index t (0 : Fin 3) * 16 + 1 * b.val = b.val; omega
    | ⟨1, _⟩ => show win0_7.index t (1 : Fin 3) * 32 + 1 * r.val = 32 * t.val + r.val; omega
    | ⟨2, _⟩ => show win0_7.index t (2 : Fin 3) * 1024 + 1 * j.val = j.val; omega
  rw [hemb]

theorem flushed7_eq (c : Dev nD) (t : Fin cfg0.N) :
    (dats m 0 c).flushed 7 t = ((cfg0.win 7).blk t).view.read (Elt Ideal) (upperCoef (larr m c) (uarr m c)) := by
  show (cfg0.win 7).cut (grid0.coords t) ((dats m 0 c).after 7 t) = _
  rw [after0_7]
  funext y
  exact blk7 m c t y

theorem mem_blk7 (t : Fin cfg0.N) (i : S16x1024x1024.Idx) :
    i ∈ ((cfg0.win 7).blk t).view.set ↔ ∀ a : Fin 3, win0_7.index t a * S16x32x1024.size a ≤ (i a).val ∧ (i a).val < win0_7.index t a * S16x32x1024.size a + S16x32x1024.size a := by
  show i ∈ ((View.whole main_v2_3).slice (win0_7.rect t)).set ↔ _
  rw [View.set_slice_whole, Rect.mem_set_unit]
  exact Iff.rfl

/-- Row `i` lies in the block of point `i / 32`. -/
theorem cover7 (i : S16x1024x1024.Idx) : ∃ t : Fin cfg0.N, (cfg0.win 7).flush t = true ∧ i ∈ ((cfg0.win 7).blk t).view.set := by
  have hi0 : (i 0).val < 16 := (i 0).isLt
  have hi1 : (i 1).val < 1024 := (i 1).isLt
  have hi2 : (i 2).val < 1024 := (i 2).isLt
  have hlt : (i 1).val / 32 < cfg0.N := by rw [show cfg0.N = 32 from N_0]; omega
  refine ⟨⟨(i 1).val / 32, hlt⟩, flush0_7 _, ?_⟩
  rw [mem_blk7]
  obtain ⟨e0, e1, e2⟩ := idx7 ⟨(i 1).val / 32, hlt⟩
  have e1' : win0_7.index ⟨(i 1).val / 32, hlt⟩ (1 : Fin 3) = (i 1).val / 32 := e1
  intro a
  match a with
  | ⟨0, _⟩ => show win0_7.index ⟨(i 1).val / 32, hlt⟩ (0 : Fin 3) * 16 ≤ (i 0).val ∧ (i 0).val < win0_7.index ⟨(i 1).val / 32, hlt⟩ (0 : Fin 3) * 16 + 16; omega
  | ⟨1, _⟩ => show win0_7.index ⟨(i 1).val / 32, hlt⟩ (1 : Fin 3) * 32 ≤ (i 1).val ∧ (i 1).val < win0_7.index ⟨(i 1).val / 32, hlt⟩ (1 : Fin 3) * 32 + 32; omega
  | ⟨2, _⟩ => show win0_7.index ⟨(i 1).val / 32, hlt⟩ (2 : Fin 3) * 1024 ≤ (i 2).val ∧ (i 2).val < win0_7.index ⟨(i 1).val / 32, hlt⟩ (2 : Fin 3) * 1024 + 1024; omega

/-- The array after the run. -/
theorem final7 (c : Dev nD) : (dats m 0 c).arrAt 7 cfg0.N = upperCoef (larr m c) (uarr m c) :=
  (dats m 0 c).arrAt_eq_of_cover 7 _ (fun t _ => flushed7_eq m c t) cover7

/-! ## The run, read -/

/-- After the frame run, the first argument is as launched: window 0 stages it and never writes it back. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
/-- The second argument likewise. -/
theorem kept_arg1 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The kernel's run re-posted: each of its six results is the specification's function of the two arguments, and the
    arguments are unchanged. -/
theorem run : θ_run defs (onTc (τ := τ) (main (F := Ideal))) ⟨m, fun _ => 0, ρ⟩ fun r => ∀ c : Dev nD,
      r.2.mem ((c : Thread nD τ).loc main_v3) = softLower (larr m c) (uarr m c)
      ∧ r.2.mem ((c : Thread nD τ).loc main_v4) = softUpper (larr m c) (uarr m c)
      ∧ r.2.mem ((c : Thread nD τ).loc main_v2_2) = lowerCoef (larr m c) (uarr m c)
      ∧ r.2.mem ((c : Thread nD τ).loc main_v2_3) = upperCoef (larr m c) (uarr m c)
      ∧ r.2.mem ((c : Thread nD τ).loc main_v5) = lowerBias (larr m c) (uarr m c)
      ∧ r.2.mem ((c : Thread nD τ).loc main_v6) = upperBias (larr m c) (uarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v3 (Pipeline.mem_restRefs_of main_v3 rfl (by decide))).trans (tail_v3 m c),
      ((h c).2 main_v4 (Pipeline.mem_restRefs_of main_v4 rfl (by decide))).trans (tail_v4 m c),
      ((h c).1 6).trans (final6 m c),
      ((h c).1 7).trans (final7 m c),
      ((h c).2 main_v5 (Pipeline.mem_restRefs_of main_v5 rfl (by decide))).trans (tail_v5 m c),
      ((h c).2 main_v6 (Pipeline.mem_restRefs_of main_v6 rfl (by decide))).trans (tail_v6 m c),
      kept_arg0 m r h c,
      kept_arg1 m r h c⟩)
    (run_main m ρ)

end Cert.KernelIdeal.ArrValue

end
-- ==== Proof.RefValue.lean ====
/-
  The reference's six results are the functions of Proof/BoundSpec.lean of its two arguments.

  The reference masks the pair of bounds before anything is computed from it and masks every derived quantity again
  before it is summed; by `BoundSpec.offd_premask` the first mask changes nothing. Its two indicators are an identity
  matrix read as floats and `1` minus it.

  The layers, each read at an index written by its coordinates:
  * the two indicators at `(i, j)`: two column numbers below 1024 have equal 32-bit words exactly when they are equal,
    so the identity matrix is `dg` and one minus it is `off`;
  * the pair stage at `(b, i, j)`: the masked ends `lo * off`, `hi * off`, the quantities of them, and each masked product,
    which is the specification's `offd` of the unmasked ends;
  * the six row sums at `(b, i)`;
  * the per-row scalars (`recip`, `tanG`, `secG`), the two coefficient stages and the six results.
-/
import proofs.«157890_j59949153518086_1_alg».proof.Proof.Gen.ReferenceIdeal.Read
import proofs.«157890_j59949153518086_1_alg».proof.Proof.BoundSpec
import Idealize.ShloMosaic.Lib.StableHlo.Predicate

noncomputable section

open scoped BigOperators

namespace Cert.ReferenceIdeal.RefValue

open Idealize.ShloMosaic Idealize.ShloMosaic.ValueIdx
open Cert.ReferenceIdeal Cert.ReferenceIdeal.Read Cert.BoundSpec

/-! ## Indices by their coordinates -/

/-- A rank-2 index with coordinates `a`, `c` is `ix2 a c`. -/
theorem idx2_ext {n0 n1 : Nat} (k : (⟨2, ![n0, n1]⟩ : Shape).Idx) (a : Fin n0) (c : Fin n1)
    (h0 : k 0 = a) (h1 : k 1 = c) : k = ix2 a c := by
  funext d
  match d with
  | ⟨0, _⟩ => exact h0
  | ⟨1, _⟩ => exact h1

/-- A rank-3 index with coordinates `a`, `c`, `e` is `ix3 a c e`. -/
theorem idx3_ext {n0 n1 n2 : Nat} (k : (⟨3, ![n0, n1, n2]⟩ : Shape).Idx) (a : Fin n0) (c : Fin n1) (e : Fin n2)
    (h0 : k 0 = a) (h1 : k 1 = c) (h2 : k 2 = e) : k = ix3 a c e := by
  funext d
  match d with
  | ⟨0, _⟩ => exact h0
  | ⟨1, _⟩ => exact h1
  | ⟨2, _⟩ => exact h2

/-! ## The two indicators -/

/-- The words of two column numbers below 1024 (the first with the zero word added) are equal exactly when the numbers
    are. -/
theorem word_eq_iff (i j : Fin 1024) :
    IntOp.addi (BitVec.ofNat 32 i.val) 0#32 = BitVec.ofNat 32 j.val ↔ i = j := by
  unfold IntOp.addi
  rw [BitVec.add_zero]
  constructor
  · intro h
    have h' := congrArg BitVec.toNat h
    simp only [BitVec.toNat_ofNat] at h'
    exact Fin.ext (by have := i.isLt; have := j.isLt; omega)
  · rintro rfl; rfl

/-- The identity matrix, read as floats, is `dg`. -/
theorem eye_at (i j : Fin 1024) : val_main_v5 (F := Ideal) (ix2 i j) = dg i j := by
  rw [val_main_v5_apply, val_main_v4_apply, val_main_v3_apply, val_main_v0_apply, val_main_v2_apply,
    val_main_c_apply, val_main_v1_apply]
  show (((IntOp.cmpi .eq (IntOp.addi (BitVec.ofNat 32 i.val) 0#32) (BitVec.ofNat 32 j.val)).toNat : ℝ) : EReal)
    = dg i j
  unfold dg
  by_cases h : i = j
  · rw [if_pos h, StableHlo.Predicate.cmpi_eq_iff.mpr ((word_eq_iff i j).mpr h)]
    simp
  · rw [if_neg h, eq_zero_of_ne_one fun hc => h ((word_eq_iff i j).mp (StableHlo.Predicate.cmpi_eq_iff.mp hc))]
    simp

/-- One minus the identity matrix is `off`. -/
theorem offdiag_at (i j : Fin 1024) : val_main_v7 (F := Ideal) (ix2 i j) = off i j := by
  rw [val_main_v7_apply, val_main_v6_apply, val_main_cst_apply, eye_at]
  exact one_sub_dg i j

/-! The indicators broadcast along the batch axis. -/

theorem mask_v14 (b : Fin 16) (i j : Fin 1024) : val_main_v14 (F := Ideal) (ix3 b i j) = off i j := by
  rw [val_main_v14_apply, val_main_v13_apply, idx2_ext (idx_main_v13 (idx_main_v14 (ix3 b i j))) i j rfl rfl]
  exact offdiag_at i j
theorem mask_v22 (b : Fin 16) (i j : Fin 1024) : val_main_v22 (F := Ideal) (ix3 b i j) = off i j := by
  rw [val_main_v22_apply, val_main_v21_apply, idx2_ext (idx_main_v21 (idx_main_v22 (ix3 b i j))) i j rfl rfl]
  exact offdiag_at i j
theorem mask_v44 (b : Fin 16) (i j : Fin 1024) : val_main_v44 (F := Ideal) (ix3 b i j) = off i j := by
  rw [val_main_v44_apply, val_main_v43_apply, idx2_ext (idx_main_v43 (idx_main_v44 (ix3 b i j))) i j rfl rfl]
  exact offdiag_at i j
theorem mask_v47 (b : Fin 16) (i j : Fin 1024) : val_main_v47 (F := Ideal) (ix3 b i j) = off i j := by
  rw [val_main_v47_apply, val_main_v46_apply, idx2_ext (idx_main_v46 (idx_main_v47 (ix3 b i j))) i j rfl rfl]
  exact offdiag_at i j
theorem mask_v50 (b : Fin 16) (i j : Fin 1024) : val_main_v50 (F := Ideal) (ix3 b i j) = off i j := by
  rw [val_main_v50_apply, val_main_v49_apply, idx2_ext (idx_main_v49 (idx_main_v50 (ix3 b i j))) i j rfl rfl]
  exact offdiag_at i j
theorem mask_v53 (b : Fin 16) (i j : Fin 1024) : val_main_v53 (F := Ideal) (ix3 b i j) = off i j := by
  rw [val_main_v53_apply, val_main_v52_apply, idx2_ext (idx_main_v52 (idx_main_v53 (ix3 b i j))) i j rfl rfl]
  exact offdiag_at i j
theorem mask_v56 (b : Fin 16) (i j : Fin 1024) : val_main_v56 (F := Ideal) (ix3 b i j) = off i j := by
  rw [val_main_v56_apply, val_main_v55_apply, idx2_ext (idx_main_v55 (idx_main_v56 (ix3 b i j))) i j rfl rfl]
  exact offdiag_at i j
theorem mask_v59 (b : Fin 16) (i j : Fin 1024) : val_main_v59 (F := Ideal) (ix3 b i j) = off i j := by
  rw [val_main_v59_apply, val_main_v58_apply, idx2_ext (idx_main_v58 (idx_main_v59 (ix3 b i j))) i j rfl rfl]
  exact offdiag_at i j
theorem mask_v67 (b : Fin 16) (i j : Fin 1024) : val_main_v67 (F := Ideal) (ix3 b i j) = dg i j := by
  rw [val_main_v67_apply, val_main_v65_apply, idx2_ext (idx_main_v65 (idx_main_v67 (ix3 b i j))) i j rfl rfl]
  exact eye_at i j
theorem mask_v73 (b : Fin 16) (i j : Fin 1024) : val_main_v73 (F := Ideal) (ix3 b i j) = dg i j := by
  rw [val_main_v73_apply, val_main_v71_apply, idx2_ext (idx_main_v71 (idx_main_v73 (ix3 b i j))) i j rfl rfl]
  exact eye_at i j

/-! ## The pair stage at `(b, i, j)` -/

section Pairs
variable (x0 x1 : FVec Ideal SRow .f32) (b : Fin 16) (i j : Fin 1024)

/-- The lower end of the pair's interval, before the mask. -/
theorem v12_at : val_main_v12 (F := Ideal) x0 x1 (ix3 b i j) = lo x0 x1 b i j := by
  rw [val_main_v12_apply, val_main_v10_apply, val_main_v8_apply, val_main_v11_apply, val_main_v9_apply,
    idx2_ext (idx_main_v8 (idx_main_v10 (ix3 b i j))) b j rfl rfl,
    idx2_ext (idx_main_v9 (idx_main_v11 (ix3 b i j))) b i rfl rfl]
  rfl
/-- The upper end of the pair's interval, before the mask. -/
theorem v20_at : val_main_v20 (F := Ideal) x0 x1 (ix3 b i j) = hi x0 x1 b i j := by
  rw [val_main_v20_apply, val_main_v18_apply, val_main_v16_apply, val_main_v19_apply, val_main_v17_apply,
    idx2_ext (idx_main_v16 (idx_main_v18 (ix3 b i j))) b j rfl rfl,
    idx2_ext (idx_main_v17 (idx_main_v19 (ix3 b i j))) b i rfl rfl]
  rfl
/-- The masked lower end. -/
theorem v15_at : val_main_v15 (F := Ideal) x0 x1 (ix3 b i j) = lo x0 x1 b i j * off i j := by
  rw [val_main_v15_apply, v12_at, mask_v14]; rfl
/-- The masked upper end. -/
theorem v23_at : val_main_v23 (F := Ideal) x0 x1 (ix3 b i j) = hi x0 x1 b i j * off i j := by
  rw [val_main_v23_apply, v20_at, mask_v22]; rfl

/-- `exp` of the masked lower end. -/
theorem v24_at : val_main_v24 (F := Ideal) x0 x1 (ix3 b i j)
    = expLo (lo x0 x1 b i j * off i j) (hi x0 x1 b i j * off i j) := by
  rw [val_main_v24_apply, v15_at]; rfl
/-- `exp` of the masked upper end. -/
theorem v25_at : val_main_v25 (F := Ideal) x0 x1 (ix3 b i j)
    = expHi (lo x0 x1 b i j * off i j) (hi x0 x1 b i j * off i j) := by
  rw [val_main_v25_apply, v23_at]; rfl
/-- The secant's slope over the masked interval. -/
theorem v34_at : val_main_v34 (F := Ideal) x0 x1 (ix3 b i j)
    = secSlope (lo x0 x1 b i j * off i j) (hi x0 x1 b i j * off i j) := by
  rw [val_main_v34_apply, val_main_v33_apply, val_main_v31_apply, val_main_v32_apply, val_main_cst_1_apply,
    val_main_v30_apply, val_main_v27_apply, val_main_v29_apply, val_main_v28_apply, val_main_cst_0_apply,
    val_main_v26_apply, v25_at, v24_at, v23_at, v15_at]
  rfl
/-- The secant's intercept over the masked interval. -/
theorem v36_at : val_main_v36 (F := Ideal) x0 x1 (ix3 b i j)
    = secIcpt (lo x0 x1 b i j * off i j) (hi x0 x1 b i j * off i j) := by
  rw [val_main_v36_apply, val_main_v35_apply, v34_at, v24_at, v15_at]
  rfl
/-- The midpoint of the masked interval. -/
theorem v39_at : val_main_v39 (F := Ideal) x0 x1 (ix3 b i j)
    = mid (lo x0 x1 b i j * off i j) (hi x0 x1 b i j * off i j) := by
  rw [val_main_v39_apply, val_main_v38_apply, val_main_cst_2_apply, val_main_v37_apply, v15_at, v23_at]
  rfl
/-- The tangent's slope at the midpoint of the masked interval. -/
theorem v40_at : val_main_v40 (F := Ideal) x0 x1 (ix3 b i j)
    = tanSlope (lo x0 x1 b i j * off i j) (hi x0 x1 b i j * off i j) := by
  rw [val_main_v40_apply, v39_at]; rfl
/-- The tangent's intercept over the masked interval. -/
theorem v42_at : val_main_v42 (F := Ideal) x0 x1 (ix3 b i j)
    = tanIcpt (lo x0 x1 b i j * off i j) (hi x0 x1 b i j * off i j) := by
  rw [val_main_v42_apply, val_main_v41_apply, v40_at, v39_at]
  rfl

/-! The six masked products: the first mask changes nothing. -/

theorem v45_at : val_main_v45 (F := Ideal) x0 x1 (ix3 b i j) = offd x0 x1 secSlope b i j := by
  rw [val_main_v45_apply, v34_at, mask_v44]
  exact offd_premask secSlope _ _ i j
theorem v48_at : val_main_v48 (F := Ideal) x0 x1 (ix3 b i j) = offd x0 x1 secIcpt b i j := by
  rw [val_main_v48_apply, v36_at, mask_v47]
  exact offd_premask secIcpt _ _ i j
theorem v51_at : val_main_v51 (F := Ideal) x0 x1 (ix3 b i j) = offd x0 x1 tanSlope b i j := by
  rw [val_main_v51_apply, v40_at, mask_v50]
  exact offd_premask tanSlope _ _ i j
theorem v54_at : val_main_v54 (F := Ideal) x0 x1 (ix3 b i j) = offd x0 x1 tanIcpt b i j := by
  rw [val_main_v54_apply, v42_at, mask_v53]
  exact offd_premask tanIcpt _ _ i j
theorem v57_at : val_main_v57 (F := Ideal) x0 x1 (ix3 b i j) = offd x0 x1 expLo b i j := by
  rw [val_main_v57_apply, v24_at, mask_v56]
  exact offd_premask expLo _ _ i j
theorem v60_at : val_main_v60 (F := Ideal) x0 x1 (ix3 b i j) = offd x0 x1 expHi b i j := by
  rw [val_main_v60_apply, v25_at, mask_v59]
  exact offd_premask expHi _ _ i j

end Pairs

/-! ## The six row sums at `(b, i)` -/

section Rows
variable (x0 x1 : FVec Ideal SRow .f32) (b : Fin 16) (i : Fin 1024)

theorem v61_at : val_main_v61 (F := Ideal) x0 x1 (ix2 b i) = Slo x0 x1 b i := by
  rw [val_main_v61_apply, val_main_cst_3_apply, Ideal.ofBits_def, Ideal.ofBits_zero_f32, zero_add]
  show _ = ∑ k : Fin 1024, offd x0 x1 expLo b i k
  refine Finset.sum_congr rfl fun k _ => ?_
  rw [idx3_ext (idx_main_v61 (ix2 b i) k) b i k rfl rfl rfl]
  exact v57_at x0 x1 b i k
theorem v62_at : val_main_v62 (F := Ideal) x0 x1 (ix2 b i) = Shi x0 x1 b i := by
  rw [val_main_v62_apply, val_main_cst_4_apply, Ideal.ofBits_def, Ideal.ofBits_zero_f32, zero_add]
  show _ = ∑ k : Fin 1024, offd x0 x1 expHi b i k
  refine Finset.sum_congr rfl fun k _ => ?_
  rw [idx3_ext (idx_main_v62 (ix2 b i) k) b i k rfl rfl rfl]
  exact v60_at x0 x1 b i k
theorem v63_at : val_main_v63 (F := Ideal) x0 x1 (ix2 b i) = rowSum x0 x1 secSlope b i := by
  rw [val_main_v63_apply, val_main_cst_5_apply, Ideal.ofBits_def, Ideal.ofBits_zero_f32, zero_add]
  show _ = ∑ k : Fin 1024, offd x0 x1 secSlope b i k
  refine Finset.sum_congr rfl fun k _ => ?_
  rw [idx3_ext (idx_main_v63 (ix2 b i) k) b i k rfl rfl rfl]
  exact v45_at x0 x1 b i k
theorem v64_at : val_main_v64 (F := Ideal) x0 x1 (ix2 b i) = rowSum x0 x1 tanSlope b i := by
  rw [val_main_v64_apply, val_main_cst_6_apply, Ideal.ofBits_def, Ideal.ofBits_zero_f32, zero_add]
  show _ = ∑ k : Fin 1024, offd x0 x1 tanSlope b i k
  refine Finset.sum_congr rfl fun k _ => ?_
  rw [idx3_ext (idx_main_v64 (ix2 b i) k) b i k rfl rfl rfl]
  exact v51_at x0 x1 b i k
theorem v77_at : val_main_v77 (F := Ideal) x0 x1 (ix2 b i) = rowSum x0 x1 secIcpt b i := by
  rw [val_main_v77_apply, val_main_cst_7_apply, Ideal.ofBits_def, Ideal.ofBits_zero_f32, zero_add]
  show _ = ∑ k : Fin 1024, offd x0 x1 secIcpt b i k
  refine Finset.sum_congr rfl fun k _ => ?_
  rw [idx3_ext (idx_main_v77 (ix2 b i) k) b i k rfl rfl rfl]
  exact v48_at x0 x1 b i k
theorem v78_at : val_main_v78 (F := Ideal) x0 x1 (ix2 b i) = rowSum x0 x1 tanIcpt b i := by
  rw [val_main_v78_apply, val_main_cst_8_apply, Ideal.ofBits_def, Ideal.ofBits_zero_f32, zero_add]
  show _ = ∑ k : Fin 1024, offd x0 x1 tanIcpt b i k
  refine Finset.sum_congr rfl fun k _ => ?_
  rw [idx3_ext (idx_main_v78 (ix2 b i) k) b i k rfl rfl rfl]
  exact v54_at x0 x1 b i k

/-! ## The per-row scalars -/

/-- `g` at the lower end of `S`. -/
theorem v82_at : val_main_v82 (F := Ideal) x0 x1 (ix2 b i) = recip (Slo x0 x1 b i) := by
  rw [val_main_v82_apply, val_main_v81_apply, val_main_cst_10_apply, val_main_v80_apply, val_main_v79_apply,
    val_main_cst_9_apply, v61_at]
  rfl
/-- `g` at the upper end of `S`. -/
theorem v86_at : val_main_v86 (F := Ideal) x0 x1 (ix2 b i) = recip (Shi x0 x1 b i) := by
  rw [val_main_v86_apply, val_main_v85_apply, val_main_cst_12_apply, val_main_v84_apply, val_main_v83_apply,
    val_main_cst_11_apply, v62_at]
  rfl
/-- The tangent's slope of `g` at the upper end, as the secant's stand-in on a short interval. -/
theorem v99_at : val_main_v99 (F := Ideal) x0 x1 (ix2 b i) = tanG (Shi x0 x1 b i) := by
  rw [val_main_v99_apply, val_main_v98_apply, val_main_cst_16_apply, val_main_v97_apply, val_main_v96_apply,
    val_main_v95_apply, val_main_cst_15_apply, v62_at]
  rfl
/-- The secant's slope of `g` over `[Slo, Shi]`. -/
theorem v100_at : val_main_v100 (F := Ideal) x0 x1 (ix2 b i) = secG (Slo x0 x1 b i) (Shi x0 x1 b i) := by
  rw [val_main_v100_apply, val_main_v94_apply, val_main_v92_apply, val_main_v93_apply, val_main_cst_14_apply,
    val_main_v91_apply, val_main_v88_apply, val_main_v90_apply, val_main_v89_apply, val_main_cst_13_apply,
    val_main_v87_apply, v99_at, v86_at, v82_at, v62_at, v61_at]
  rfl
/-- The tangent's slope of `g` at the upper end. -/
theorem v107_at : val_main_v107 (F := Ideal) x0 x1 (ix2 b i) = tanG (Shi x0 x1 b i) := by
  rw [val_main_v107_apply, val_main_v106_apply, val_main_cst_18_apply, val_main_v105_apply, val_main_v104_apply,
    val_main_v103_apply, val_main_cst_17_apply, v62_at]
  rfl
/-- The secant's value at `S = 0`. -/
theorem v102_at : val_main_v102 (F := Ideal) x0 x1 (ix2 b i)
    = recip (Slo x0 x1 b i) - secG (Slo x0 x1 b i) (Shi x0 x1 b i) * Slo x0 x1 b i := by
  rw [val_main_v102_apply, val_main_v101_apply, v82_at, v100_at, v61_at]
  rfl
/-- The tangent's value at `S = 0`. -/
theorem v113_at : val_main_v113 (F := Ideal) x0 x1 (ix2 b i)
    = recip (Shi x0 x1 b i) - tanG (Shi x0 x1 b i) * Shi x0 x1 b i := by
  rw [val_main_v113_apply, val_main_v111_apply, val_main_v110_apply, val_main_cst_20_apply, val_main_v109_apply,
    val_main_v108_apply, val_main_cst_19_apply, val_main_v112_apply, v107_at, v62_at]
  rfl

end Rows

/-! ## The two coefficient stages at `(b, i, j)` -/

section Coefs
variable (x0 x1 : FVec Ideal SRow .f32) (b : Fin 16) (i j : Fin 1024)

theorem v70_at : val_main_v70 (F := Ideal) x0 x1 (ix3 b i j) = coefS x0 x1 secSlope b i j := by
  rw [val_main_v70_apply, val_main_v69_apply, val_main_v68_apply, val_main_v66_apply,
    idx2_ext (idx_main_v66 (idx_main_v68 (ix3 b i j))) b i rfl rfl, v63_at, mask_v67, v45_at]
  rfl
theorem v76_at : val_main_v76 (F := Ideal) x0 x1 (ix3 b i j) = coefS x0 x1 tanSlope b i j := by
  rw [val_main_v76_apply, val_main_v75_apply, val_main_v74_apply, val_main_v72_apply,
    idx2_ext (idx_main_v72 (idx_main_v74 (ix3 b i j))) b i rfl rfl, v64_at, mask_v73, v51_at]
  rfl
theorem v115_at : val_main_v115 (F := Ideal) x0 x1 (ix3 b i j) = secG (Slo x0 x1 b i) (Shi x0 x1 b i) := by
  rw [val_main_v115_apply, val_main_v114_apply,
    idx2_ext (idx_main_v114 (idx_main_v115 (ix3 b i j))) b i rfl rfl, v100_at]
theorem v118_at : val_main_v118 (F := Ideal) x0 x1 (ix3 b i j) = tanG (Shi x0 x1 b i) := by
  rw [val_main_v118_apply, val_main_v117_apply,
    idx2_ext (idx_main_v117 (idx_main_v118 (ix3 b i j))) b i rfl rfl, v107_at]

end Coefs

/-! ## The six results -/

variable (x0 x1 : FVec Ideal SRow .f32)

theorem softLower_eq : val_main_v124 (F := Ideal) x0 x1 = softLower x0 x1 := by
  funext y
  obtain ⟨b, i, rfl⟩ : ∃ (b : Fin 16) (i : Fin 1024), y = ix2 b i := ⟨y 0, y 1, eq_ix2 y⟩
  rw [softLower_apply, val_main_v124_apply, val_main_call2_v4_apply, val_main_call2_v3_apply, val_main_cst_22_apply,
    val_main_call2_v2_apply, val_main_call2_v1_apply, val_main_call2_v0_apply, val_main_cst_21_apply, v86_at]
  rfl
theorem softUpper_eq : val_main_v125 (F := Ideal) x0 x1 = softUpper x0 x1 := by
  funext y
  obtain ⟨b, i, rfl⟩ : ∃ (b : Fin 16) (i : Fin 1024), y = ix2 b i := ⟨y 0, y 1, eq_ix2 y⟩
  rw [softUpper_apply, val_main_v125_apply, val_main_call3_v4_apply, val_main_call3_v3_apply, val_main_cst_24_apply,
    val_main_call3_v2_apply, val_main_call3_v1_apply, val_main_call3_v0_apply, val_main_cst_23_apply, v82_at]
  rfl
theorem lowerCoef_eq : val_main_v119 (F := Ideal) x0 x1 = lowerCoef x0 x1 := by
  funext y
  obtain ⟨b, i, j, rfl⟩ : ∃ (b : Fin 16) (i j : Fin 1024), y = ix3 b i j := ⟨y 0, y 1, y 2, eq_ix3 y⟩
  rw [lowerCoef_apply, val_main_v119_apply, v118_at, v76_at]
  rfl
theorem upperCoef_eq : val_main_v116 (F := Ideal) x0 x1 = upperCoef x0 x1 := by
  funext y
  obtain ⟨b, i, j, rfl⟩ : ∃ (b : Fin 16) (i j : Fin 1024), y = ix3 b i j := ⟨y 0, y 1, y 2, eq_ix3 y⟩
  rw [upperCoef_apply, val_main_v116_apply, v115_at, v70_at]
  rfl
theorem lowerBias_eq : val_main_v123 (F := Ideal) x0 x1 = lowerBias x0 x1 := by
  funext y
  obtain ⟨b, i, rfl⟩ : ∃ (b : Fin 16) (i : Fin 1024), y = ix2 b i := ⟨y 0, y 1, eq_ix2 y⟩
  rw [lowerBias_apply, val_main_v123_apply, val_main_v122_apply, v107_at, v78_at, v113_at]
  rfl
theorem upperBias_eq : val_main_v121 (F := Ideal) x0 x1 = upperBias x0 x1 := by
  funext y
  obtain ⟨b, i, rfl⟩ : ∃ (b : Fin 16) (i : Fin 1024), y = ix2 b i := ⟨y 0, y 1, eq_ix2 y⟩
  rw [upperBias_apply, val_main_v121_apply, val_main_v120_apply, v100_at, v77_at, v102_at]
  rfl

end Cert.ReferenceIdeal.RefValue

end
-- ==== Proof.lean ====
/-
  The certificate of the softmax-bound kernel against its reference: `Cert.Claim`.

  Both programs compute, from interval bounds `l ≤ x ≤ u` on 1024 logits per batch row, affine lower and upper bounds on
  each softmax output (Proof/BoundSpec.lean states the six results as pure functions on the extended reals). The kernel
  does it 32 rows at a time and skips the reference's first masking of the pairwise bounds; on the extended reals a
  product with the off-diagonal indicator is `0` on the diagonal and the other factor off it whatever that factor is, so
  the skipped mask changes nothing (`BoundSpec.offd_premask`), and no finiteness of the inputs is used.

  * Proof/KernelBlock.lean: what one grid point leaves in its six output blocks, index by index.
  * Proof/KernelValue.lean: the six result arrays after the kernel's run (the blocks tile them; the four per-row results
    pass through a host transpose before and after the region).
  * Proof/RefValue.lean: the reference's six results, stage by stage.
  * Here: the three frames (the kernel's two from its frame certificate, the reference's from its run), `preserves`
    (the idealization rewrote nothing), and `algebraic`: both runs end at the same six functions of arguments that agree.
-/
import proofs.«157890_j59949153518086_1_alg».proof.Defs
import proofs.«157890_j59949153518086_1_alg».proof.Proof.Gen.Kernel
import proofs.«157890_j59949153518086_1_alg».proof.Proof.Gen.Kernel.Skeleton
import proofs.«157890_j59949153518086_1_alg».proof.Proof.Gen.Kernel.Launch
import proofs.«157890_j59949153518086_1_alg».proof.Proof.Gen.Kernel.Points
import proofs.«157890_j59949153518086_1_alg».proof.Proof.KernelFrame
import proofs.«157890_j59949153518086_1_alg».proof.Proof.Gen.KernelIdeal
import proofs.«157890_j59949153518086_1_alg».proof.Proof.Gen.KernelIdeal.Skeleton
import proofs.«157890_j59949153518086_1_alg».proof.Proof.Gen.KernelIdeal.Launch
import proofs.«157890_j59949153518086_1_alg».proof.Proof.Gen.KernelIdeal.Points
import proofs.«157890_j59949153518086_1_alg».proof.Proof.KernelIdealFrame
import proofs.«157890_j59949153518086_1_alg».proof.Proof.Gen.ReferenceIdeal
import proofs.«157890_j59949153518086_1_alg».proof.Proof.Gen.ReferenceIdeal.Run
import proofs.«157890_j59949153518086_1_alg».proof.Proof.Gen.ReferenceIdeal.Read
import proofs.«157890_j59949153518086_1_alg».proof.Proof.Gen.Pre_finite_inputs
import proofs.«157890_j59949153518086_1_alg».proof.Proof.KernelValue
import proofs.«157890_j59949153518086_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.GenP.frame m ρ
/-- The idealized kernel runs and keeps its arguments. -/
theorem frame_ki : Cert.frame_KernelIdeal := fun m ρ _ => Cert.KernelIdeal.GenP.frame m ρ
/-- The reference runs and keeps its arguments: its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- Both runs end with each of the six results at the specification's function of the arguments, which agree. -/
theorem algebraic : Cert.algebraic_KernelIdeal_ReferenceIdeal := by
  intro m ρ m' ρ' _ hagree
  refine ⟨_, _, _, _, _, _, Cert.KernelIdeal.ArrValue.run m ρ, ?_⟩
  refine (θ_run Cert.ReferenceIdeal.defs _ _).mono (fun _ h c => ?_) (Cert.ReferenceIdeal.Value.run (F := Ideal) m' ρ')
  obtain ⟨h0, h1, h2, h3, h4, h5, ha0, ha1⟩ := h c
  have e0 := (hagree c).1
  have e1 := (hagree c).2
  refine ⟨h0.trans ?_, h1.trans ?_, h2.trans ?_, h3.trans ?_, h4.trans ?_, h5.trans ?_, ha0, ha1⟩
  · exact (Cert.ReferenceIdeal.Read.val_main_v124_eq _ _).trans
      ((Cert.ReferenceIdeal.RefValue.softLower_eq _ _).trans (by rw [e0, e1]))
  · exact (Cert.ReferenceIdeal.Read.val_main_v125_eq _ _).trans
      ((Cert.ReferenceIdeal.RefValue.softUpper_eq _ _).trans (by rw [e0, e1]))
  · exact (Cert.ReferenceIdeal.Read.val_main_v119_eq m' c).trans
      ((Cert.ReferenceIdeal.RefValue.lowerCoef_eq _ _).trans (by rw [e0, e1]))
  · exact (Cert.ReferenceIdeal.Read.val_main_v116_eq m' c).trans
      ((Cert.ReferenceIdeal.RefValue.upperCoef_eq _ _).trans (by rw [e0, e1]))
  · exact (Cert.ReferenceIdeal.Read.val_main_v123_eq m' c).trans
      ((Cert.ReferenceIdeal.RefValue.lowerBias_eq _ _).trans (by rw [e0, e1]))
  · exact (Cert.ReferenceIdeal.Read.val_main_v121_eq m' c).trans
      ((Cert.ReferenceIdeal.RefValue.upperBias_eq _ _).trans (by rw [e0, e1]))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
